-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S2048x64 : Shape := ⟨2, ![2048, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2048 : S_.BroadcastsInDim S64x2048 (![] : Fin 0 → Fin S64x2048.rank)
  reducesTo_S64x2048_S_d0_1 : S64x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S64x2048 .f32) (main_arg12 : FVec F S2048 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2048 .f32 := Host.absf main_arg11
  let main_cst_20 : FVec F S_ .f32 := constant S_ .f32 0x7F800000#32
  let main_v55 : FVec F S64x2048 .f32 := broadcastInDim S64x2048 ![] bcast_S_S64x2048 main_cst_20
  let main_v56 : IVec S64x2048 1 := cmpf .olt main_v54 main_v55
  let main_c_21 : IVec S_ 1 := constantI S_ 1 1#1
  let main_v57 : IVec S_ 1 := (fun x v => Host.reduce IntOp.andi x v reducesTo_S64x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S2048x64 .f32) (main_arg8 : FVec F S64 .f32) (main_arg9 : FVec F S64x64 .f32) (main_arg10 : FVec F S64 .f32) (main_arg11 : FVec F S64x2048 .f32) (main_arg12 : FVec F S2048 .f32) (main_v33 : IVec S_ 1) : IVec S_ 1 :=
  let main_v34 : FVec F S2048x64 .f32 := Host.absf main_arg7
  let main_cst_12 : FVec F S_ .f32 := constant S_ .f32 0x7F800000#32
  let main_v35 : FVec F S2048x64 .f32 := broadcastInDim S2048x64 ![] bcast_S_S2048x64 main_cst_12
  let main_v36 : IVec S2048x64 1 := cmpf .olt main_v34 main_v35
  let main_c_13 : IVec S_ 1 := constantI S_ 1 1#1
  let main_v37 : IVec S_ 1 := (fun x v => Host.reduce IntOp.andi x v reducesTo_S2048x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S64x2048 .f32) (main_arg6 : FVec F S2048 .f32) (main_arg7 : FVec F S2048x64 .f32) (main_arg8 : FVec F S64 .f32) (main_arg9 : FVec F S64x64 .f32) (main_arg10 : FVec F S64 .f32) (main_arg11 : FVec F S64x2048 .f32) (main_arg12 : FVec F S2048 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2048 .f32 := Host.absf main_arg5
  let main_cst_8 : FVec F S_ .f32 := constant S_ .f32 0x7F800000#32
  let main_v25 : FVec F S64x2048 .f32 := broadcastInDim S64x2048 ![] bcast_S_S64x2048 main_cst_8
  let main_v26 : IVec S64x2048 1 := cmpf .olt main_v24 main_v25
  let main_c_9 : IVec S_ 1 := constantI S_ 1 1#1
  let main_v27 : IVec S_ 1 := (fun x v => Host.reduce IntOp.andi x v reducesTo_S64x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x4096 .f32) (main_arg1 : FVec F S2048x64 .f32) (main_arg2 : FVec F S64 .f32) (main_arg3 : FVec F S64x64 .f32) (main_arg4 : FVec F S64 .f32) (main_arg5 : FVec F S64x2048 .f32) (main_arg6 : FVec F S2048 .f32) (main_arg7 : FVec F S2048x64 .f32) (main_arg8 : FVec F S64 .f32) (main_arg9 : FVec F S64x64 .f32) (main_arg10 : FVec F S64 .f32) (main_arg11 : FVec F S64x2048 .f32) (main_arg12 : FVec F S2048 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S16384x4096 : Shape := ⟨2, ![16384, 4096]⟩
abbrev S2048x64 : Shape := ⟨2, ![2048, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S16384x64x32x2 : Shape := ⟨4, ![16384, 64, 32, 2]⟩
abbrev S16384x64x32x1 : Shape := ⟨4, ![16384, 64, 32, 1]⟩
abbrev S16384x64x32 : Shape := ⟨3, ![16384, 64, 32]⟩
abbrev S_ : Shape := ⟨0, ![]⟩
abbrev S1x64x1 : Shape := ⟨3, ![1, 64, 1]⟩
abbrev S16384x2048 : Shape := ⟨2, ![16384, 2048]⟩
abbrev S256x2048 : Shape := ⟨2, ![256, 2048]⟩
abbrev S256x64 : Shape := ⟨2, ![256, 64]⟩
abbrev S1x64 : Shape := ⟨2, ![1, 64]⟩
abbrev S1x2048 : Shape := ⟨2, ![1, 2048]⟩

abbrev nBuf : Space → Nat
  | .hbm => 69
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S2048x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2048, .f32⟩
  | .hbm, ⟨6, _⟩ => ⟨S2048, .f32⟩
  | .hbm, ⟨7, _⟩ => ⟨S2048x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x2048, .f32⟩
  | .hbm, ⟨12, _⟩ => ⟨S2048, .f32⟩
  | .hbm, ⟨13, _⟩ => ⟨S16384x64x32x2, .f32⟩
  | .hbm, ⟨14, _⟩ => ⟨S16384x64x32x1, .f32⟩
  | .hbm, ⟨15, _⟩ => ⟨S16384x64x32, .f32⟩
  | .hbm, ⟨16, _⟩ => ⟨S16384x64x32x1, .f32⟩
  | .hbm, ⟨17, _⟩ => ⟨S16384x64x32, .f32⟩
  | .hbm, ⟨18, _⟩ => ⟨S64, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i1⟩
  | .hbm, ⟨33, _⟩ => ⟨S_, .i32⟩
  | .hbm, ⟨34, _⟩ => ⟨S_, .i1⟩
  | .hbm, ⟨35, _⟩ => ⟨S64, .i1⟩
  | .hbm, ⟨36, _⟩ => ⟨S64, .i1⟩
  | .hbm, ⟨37, _⟩ => ⟨S64, .i1⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S_, .i32⟩
  | .hbm, ⟨42, _⟩ => ⟨S64, .i32⟩
  | .hbm, ⟨43, _⟩ => ⟨S64, .i1⟩
  | .hbm, ⟨44, _⟩ => ⟨S1x64x1, .i1⟩
  | .hbm, ⟨45, _⟩ => ⟨S16384x64x32, .i1⟩
  | .hbm, ⟨46, _⟩ => ⟨S16384x64x32, .f32⟩
  | .hbm, ⟨47, _⟩ => ⟨S16384x64x32, .i1⟩
  | .hbm, ⟨48, _⟩ => ⟨S16384x64x32, .f32⟩
  | .hbm, ⟨49, _⟩ => ⟨S16384x2048, .f32⟩
  | .hbm, ⟨50, _⟩ => ⟨S16384x2048, .f32⟩
  | .hbm, ⟨51, _⟩ => ⟨S2048x64, .bf16⟩
  | .hbm, ⟨52, _⟩ => ⟨S64x64, .bf16⟩
  | .hbm, ⟨53, _⟩ => ⟨S64x2048, .bf16⟩
  | .hbm, ⟨54, _⟩ => ⟨S2048x64, .bf16⟩
  | .hbm, ⟨55, _⟩ => ⟨S64x64, .bf16⟩
  | .hbm, ⟨56, _⟩ => ⟨S64x2048, .bf16⟩
  | .hbm, ⟨57, _⟩ => ⟨S16384x2048, .f32⟩
  | .hbm, ⟨58, _⟩ => ⟨S16384x2048, .f32⟩
  | .hbm, ⟨59, _⟩ => ⟨S16384x64x32, .f32⟩
  | .hbm, ⟨60, _⟩ => ⟨S16384x64x32, .f32⟩
  | .hbm, ⟨61, _⟩ => ⟨S16384x64x32, .i1⟩
  | .hbm, ⟨62, _⟩ => ⟨S16384x64x32, .f32⟩
  | .hbm, ⟨63, _⟩ => ⟨S16384x64x32, .i1⟩
  | .hbm, ⟨64, _⟩ => ⟨S16384x64x32, .f32⟩
  | .hbm, ⟨65, _⟩ => ⟨S16384x64x32x1, .f32⟩
  | .hbm, ⟨66, _⟩ => ⟨S16384x64x32x1, .f32⟩
  | .hbm, ⟨67, _⟩ => ⟨S16384x64x32x2, .f32⟩
  | .hbm, ⟨68, _⟩ => ⟨S16384x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x64, .bf16⟩
  | .local _ .vmem, ⟨5, _⟩ => ⟨S64, .f32⟩
  | .local _ .vmem, ⟨6, _⟩ => ⟨S64x64, .bf16⟩
  | .local _ .vmem, ⟨7, _⟩ => ⟨S64, .f32⟩
  | .local _ .vmem, ⟨8, _⟩ => ⟨S64x2048, .bf16⟩
  | .local _ .vmem, ⟨9, _⟩ => ⟨S2048, .f32⟩
  | .local _ .vmem, ⟨10, _⟩ => ⟨S2048x64, .bf16⟩
  | .local _ .vmem, ⟨11, _⟩ => ⟨S64, .f32⟩
  | .local _ .vmem, ⟨12, _⟩ => ⟨S64x64, .bf16⟩
  | .local _ .vmem, ⟨13, _⟩ => ⟨S64, .f32⟩
  | .local _ .vmem, ⟨14, _⟩ => ⟨S64x2048, .bf16⟩
  | .local _ .vmem, ⟨15, _⟩ => ⟨S2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v6 : Ref sig .tc := ⟨.hbm, 40, rfl⟩
abbrev main_c_0 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_call1_v0 : Ref sig .tc := ⟨.hbm, 45, rfl⟩
abbrev main_v10 : Ref sig .tc := ⟨.hbm, 46, rfl⟩
abbrev main_call2_v0 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20_0 : Ref sig .tc := ⟨.hbm, 57, rfl⟩
abbrev main_v20_1 : Ref sig .tc := ⟨.hbm, 58, rfl⟩
abbrev main_v21 : Ref sig .tc := ⟨.hbm, 59, rfl⟩
abbrev main_v22 : Ref sig .tc := ⟨.hbm, 60, rfl⟩
abbrev main_call3_v0 : Ref sig .tc := ⟨.hbm, 61, rfl⟩
abbrev main_v23 : Ref sig .tc := ⟨.hbm, 62, rfl⟩
abbrev main_call4_v0 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S16384x4096_S16384x64x32x2 : S16384x4096.ShapeCasts S16384x64x32x2
  slices_S16384x64x32x2_S16384x64x32x1_0_0_0_0 : S16384x64x32x2.Slices ![0, 0, 0, 0] S16384x64x32x1
  shapeCasts_S16384x64x32x1_S16384x64x32 : S16384x64x32x1.ShapeCasts S16384x64x32
  slices_S16384x64x32x2_S16384x64x32x1_0_0_0_1 : S16384x64x32x2.Slices ![0, 0, 0, 1] S16384x64x32x1
  bcast_S_S64 : S_.BroadcastsInDim S64 (![] : Fin 0 → Fin S64.rank)
  shapeCasts_S64_S1x64x1 : S64.ShapeCasts S1x64x1
  bcast_S1x64x1_S16384x64x32_0_1_2 : S1x64x1.BroadcastsInDim S16384x64x32 (![0, 1, 2] : Fin 3 → Fin S16384x64x32.rank)
  shapeCasts_S16384x64x32_S16384x2048 : S16384x64x32.ShapeCasts S16384x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  shapeCasts_S16384x2048_S16384x64x32 : S16384x2048.ShapeCasts S16384x64x32
  bcast_S16384x64x32_S16384x64x32x1_0_1_2 : S16384x64x32.BroadcastsInDim S16384x64x32x1 (![0, 1, 2] : Fin 3 → Fin S16384x64x32x1.rank)
  concatenates_S16384x64x32x1_S16384x64x32x1_S16384x64x32x2_d3 : Shape.Concatenates [S16384x64x32x1, S16384x64x32x1] S16384x64x32x2 3
  shapeCasts_S16384x64x32x2_S16384x4096 : S16384x64x32x2.ShapeCasts S16384x4096
  dot_S256x2048_S2048x64_S256x64_1_0_0_1_n_n_wf : DotDims.WF S256x2048 S2048x64 S256x64 [1] [0] [0] [1] [] []
  dot_S256x64_S64x64_S256x64_1_0_0_1_n_n_wf : DotDims.WF S256x64 S64x64 S256x64 [1] [0] [0] [1] [] []
  dot_S256x64_S64x2048_S256x2048_1_0_0_1_n_n_wf : DotDims.WF S256x64 S64x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .bf16 = 32 ∨ (Rect.block (s := S2048x64) S2048x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S64x2048.size a
  hwx0_6 : ∀ i : grid0.Coords, EltTy.bits .bf16 = 32 ∨ (Rect.block (s := S64x2048) S64x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x64.size a ≤ S2048x64.size a
  hwx0_8 : ∀ i : grid0.Coords, EltTy.bits .bf16 = 32 ∨ (Rect.block (s := S2048x64) S2048x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .bf16 = 32 ∨ (Rect.block (s := S64x64) S64x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x2048.size a ≤ S64x2048.size a
  hwx0_12 : ∀ i : grid0.Coords, EltTy.bits .bf16 = 32 ∨ (Rect.block (s := S64x2048) S64x2048.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2048.size a ≤ S2048.size a
  hwx0_13 : ∀ i : grid0.Coords, EltTy.bits .f32 = 32 ∨ (Rect.block (s := S2048) S2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x2048.size a ≤ S16384x2048.size a
  hwx0_14 : ∀ i : grid0.Coords, EltTy.bits .f32 = 32 ∨ (Rect.block (s := S16384x2048) S256x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x2048.size a ≤ S16384x2048.size a
  hwx0_15 : ∀ i : grid0.Coords, EltTy.bits .f32 = 32 ∨ (Rect.block (s := S16384x2048) S256x2048.size (cc0_transform_15 i) (hinb0_15 i)).WholeWords (EltTy.packing .f32)

variable [Facts₀]

def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf

abbrev win0_0 : Pipeline.Window sig grid0 :=
  Pipeline.Window.ofSpec (Memref.whole main_v12) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S64x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S2048x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S64x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20_0) S256x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v20_1) S256x2048.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S2048x64 : Shape := ⟨2, ![2048, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S_ : Shape := ⟨0, ![]⟩
abbrev S2048x1 : Shape := ⟨2, ![2048, 1]⟩
abbrev S16384x2048 : Shape := ⟨2, ![16384, 2048]⟩
abbrev S16384x64 : Shape := ⟨2, ![16384, 64]⟩
abbrev S1x64 : Shape := ⟨2, ![1, 64]⟩
abbrev S1x2048 : Shape := ⟨2, ![1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2048x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2048, .f32⟩
  | .hbm, ⟨6, _⟩ => ⟨S2048, .f32⟩
  | .hbm, ⟨7, _⟩ => ⟨S2048x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x2048, .f32⟩
  | .hbm, ⟨12, _⟩ => ⟨S2048, .f32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048x1, .i32⟩
  | .hbm, ⟨24, _⟩ => ⟨S16384x2048, .f32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S16384x2048, .f32⟩
  | .hbm, ⟨31, _⟩ => ⟨S16384x64, .f32⟩
  | .hbm, ⟨32, _⟩ => ⟨S1x64, .f32⟩
  | .hbm, ⟨33, _⟩ => ⟨S16384x64, .f32⟩
  | .hbm, ⟨34, _⟩ => ⟨S16384x64, .f32⟩
  | .hbm, ⟨35, _⟩ => ⟨S_, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S1x64, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S16384x64, .f32⟩
  | .hbm, ⟨44, _⟩ => ⟨S16384x64, .f32⟩
  | .hbm, ⟨45, _⟩ => ⟨S16384x2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S16384x64, .f32⟩
  | .hbm, ⟨50, _⟩ => ⟨S1x64, .f32⟩
  | .hbm, ⟨51, _⟩ => ⟨S16384x64, .f32⟩
  | .hbm, ⟨52, _⟩ => ⟨S16384x64, .f32⟩
  | .hbm, ⟨53, _⟩ => ⟨S_, .f32⟩
  | .hbm, ⟨54, _⟩ => ⟨S16384x64, .f32⟩
  | .hbm, ⟨55, _⟩ => ⟨S16384x64, .f32⟩
  | .hbm, ⟨56, _⟩ => ⟨S16384x64, .f32⟩
  | .hbm, ⟨57, _⟩ => ⟨S1x64, .f32⟩
  | .hbm, ⟨58, _⟩ => ⟨S16384x64, .f32⟩
  | .hbm, ⟨59, _⟩ => ⟨S16384x64, .f32⟩
  | .hbm, ⟨60, _⟩ => ⟨S_, .f32⟩
  | .hbm, ⟨61, _⟩ => ⟨S16384x64, .f32⟩
  | .hbm, ⟨62, _⟩ => ⟨S16384x64, .f32⟩
  | .hbm, ⟨63, _⟩ => ⟨S16384x2048, .f32⟩
  | .hbm, ⟨64, _⟩ => ⟨S1x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S16384x4096, .f32⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .i32⟩
  | .hbm, ⟨77, _⟩ => ⟨S2048x1, .i32⟩
  | .hbm, ⟨78, _⟩ => ⟨S16384x4096, .f32⟩
  | .hbm, ⟨79, _⟩ => ⟨S_, .i32⟩
  | .hbm, ⟨80, _⟩ => ⟨S2048, .i32⟩
  | .hbm, ⟨81, _⟩ => ⟨S2048, .i32⟩
  | .hbm, ⟨82, _⟩ => ⟨S2048, .i32⟩
  | .hbm, ⟨83, _⟩ => ⟨S2048x1, .i32⟩
  | .hbm, ⟨84, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_c_4 : Ref sig .tc := ⟨.hbm, 18, rfl⟩
abbrev main_c_5 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_6 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call0_cst : Ref sig .tc := ⟨.hbm, 35, rfl⟩
abbrev main_call0_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_cst : Ref sig .tc := ⟨.hbm, 42, rfl⟩
abbrev main_call1_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call2_cst : Ref sig .tc := ⟨.hbm, 53, rfl⟩
abbrev main_call2_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call3_cst : Ref sig .tc := ⟨.hbm, 60, rfl⟩
abbrev main_call3_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst : Ref sig .tc := ⟨.hbm, 71, rfl⟩
abbrev main_v42 : Ref sig .tc := ⟨.hbm, 72, rfl⟩
abbrev main_c_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_8 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x4096 : S_.BroadcastsInDim S16384x4096 (![] : Fin 0 → Fin S16384x4096.rank)
  gather_S16384x4096_S2048x1_S16384x2048_0_1_n_n_1_1_163841_wf : GatherDims.WF S16384x4096 S2048x1 S16384x2048 [0] [1] [] [1] [] 1 ![16384, 1]
  dot_S16384x2048_S2048x64_S16384x64_1_0_0_1_n_n_wf : DotDims.WF S16384x2048 S2048x64 S16384x64 [1] [0] [0] [1] [] []
  dot_S16384x64_S64x64_S16384x64_1_0_0_1_n_n_wf : DotDims.WF S16384x64 S64x64 S16384x64 [1] [0] [0] [1] [] []
  dot_S16384x64_S64x2048_S16384x2048_1_0_0_1_n_n_wf : DotDims.WF S16384x64 S64x2048 S16384x2048 [1] [0] [0] [1] [] []
  scatter_S16384x4096_S2048x1_S16384x2048_0_1_1_1_wf : ScatterDims.WF S16384x4096 S2048x1 S16384x2048 [0] [1] [1] 1

variable [Facts₀]

def gather_S16384x4096_S2048x1_S16384x2048_0_1_n_n_1_1_163841 : GatherDims S16384x4096 S2048x1 S16384x2048 where
  offsetDims := [0]
  collapsedSliceDims := [1]
  operandBatchingDims := []
  startIndicesBatchingDims := []
  startIndexMap := [1]
  indexVectorDim := 1
  sliceSizes := ![16384, 1]
  wf := gather_S16384x4096_S2048x1_S16384x2048_0_1_n_n_1_1_163841_wf
def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x2048_S16384x2048_1_0_0_1_n_n : DotDims S16384x64 S64x2048 S16384x2048 where
  lhsContracting := [1]
  rhsContracting := [0]
  lhsNonContracting := [0]
  rhsNonContracting := [1]
  lhsBatch := []
  rhsBatch := []
  wf := dot_S16384x64_S64x2048_S16384x2048_1_0_0_1_n_n_wf
def scatter_S16384x4096_S2048x1_S16384x2048_0_1_1_1 : ScatterDims S16384x4096 S2048x1 S16384x2048 where
  updateWindowDims := [0]
  insertedWindowDims := [1]
  scatterDimsToOperandDims := [1]
  indexVectorDim := 1
  wf := scatter_S16384x4096_S2048x1_S16384x2048_0_1_1_1_wf

class Facts : Prop extends Facts₀ where

variable [Facts]
-- ==== Proof.Coupling.lean ====
/-
  The coupling layer on a checkerboard, as mathematics.

  A lattice row of 4096 sites is a 64 × 64 board read row by row; a site is black when its board row and board column
  have the same parity, white otherwise. Each board row holds 32 black and 32 white sites, alternating, so the black
  sites in increasing order are numbered by `k = 32·i + m` (board row `i`, pair `m`), the `k`-th being site
  `64·i + 2·m + (i mod 2)`, and the `k`-th white site is the other site of the same pair. The layer keeps the black sites
  and sends the white ones to `(white − t(black)) · exp(−s(black))`, where `s` and `t` are two three-layer perceptrons
  (affine, rectifier, affine, rectifier, affine) reading the 2048 black values of the row. Everything is on the
  extended reals; no law beyond the definitions is used, so no finiteness is needed.
-/
import Idealize.ShloMosaic.PureOps.Ideal
import Idealize.ShloMosaic.Lib.ValueIdx

noncomputable section

open scoped BigOperators

namespace Cert.Coupling

open Idealize.ShloMosaic Idealize.ShloMosaic.ValueIdx

/-- The `k`-th black site of a row: pair `k mod 32` of board row `k / 32`, on the side the row's parity picks. -/
def blackSite (k : Fin 2048) : Fin 4096 := ⟨64 * (k.val / 32) + 2 * (k.val % 32) + (k.val / 32) % 2, by omega⟩

/-- The `k`-th white site: the other site of the same pair. -/
def whiteSite (k : Fin 2048) : Fin 4096 := ⟨64 * (k.val / 32) + 2 * (k.val % 32) + (1 - (k.val / 32) % 2), by omega⟩

/-- The pair a site belongs to, as its number among the sites of its colour. -/
def pairOf (n : Fin 4096) : Fin 2048 := ⟨32 * (n.val / 64) + (n.val % 64) / 2, by omega⟩

/-- A site is black when its board row and its board column have the same parity. -/
def isBlack (n : Fin 4096) : Prop := (n.val / 64) % 2 = n.val % 2

instance (n : Fin 4096) : Decidable (isBlack n) := by unfold isBlack; infer_instance

/-- Arithmetic of a site `64·i + 2·m + e` with `m < 32`, `e < 2`: its board row, its place in the row, its parity. -/
theorem site_split (i mm e : ℕ) (hm : mm < 32) (he : e < 2) :
    (64 * i + 2 * mm + e) / 64 = i ∧ (64 * i + 2 * mm + e) % 64 / 2 = mm ∧ (64 * i + 2 * mm + e) % 2 = e := by
  refine ⟨by omega, by omega, by omega⟩

/-- Arithmetic of a pair number `32·i + m` with `m < 32`. -/
theorem pair_split (i mm : ℕ) (hm : mm < 32) : (32 * i + mm) / 32 = i ∧ (32 * i + mm) % 32 = mm := by
  refine ⟨by omega, by omega⟩

/-- Every site is `64·i + 2·m + e`. -/
theorem site_cases (n : Fin 4096) : ∃ i mm e : ℕ, i < 64 ∧ mm < 32 ∧ e < 2 ∧ n.val = 64 * i + 2 * mm + e :=
  ⟨n.val / 64, n.val % 64 / 2, n.val % 2, by omega, by omega, by omega, by omega⟩

/-- Every pair number is `32·i + m`. -/
theorem pair_cases (k : Fin 2048) : ∃ i mm : ℕ, i < 64 ∧ mm < 32 ∧ k.val = 32 * i + mm :=
  ⟨k.val / 32, k.val % 32, by omega, by omega, by omega⟩

theorem blackSite_pairOf (n : Fin 4096) (h : isBlack n) : blackSite (pairOf n) = n := by
  obtain ⟨i, mm, e, _, hm, he, hn⟩ := site_cases n
  obtain ⟨h1, h2, h3⟩ := site_split i mm e hm he
  obtain ⟨h4, h5⟩ := pair_split i mm hm
  unfold isBlack at h
  apply Fin.ext
  simp only [blackSite, pairOf]
  rw [hn] at h ⊢
  rw [h1, h3] at h
  rw [h1, h2, h4, h5, h]

theorem whiteSite_pairOf (n : Fin 4096) (h : ¬ isBlack n) : whiteSite (pairOf n) = n := by
  obtain ⟨i, mm, e, _, hm, he, hn⟩ := site_cases n
  obtain ⟨h1, h2, h3⟩ := site_split i mm e hm he
  obtain ⟨h4, h5⟩ := pair_split i mm hm
  unfold isBlack at h
  apply Fin.ext
  simp only [whiteSite, pairOf]
  rw [hn] at h ⊢
  rw [h1, h3] at h
  rw [h1, h2, h4, h5]
  omega

theorem pairOf_blackSite (k : Fin 2048) : pairOf (blackSite k) = k := by
  obtain ⟨i, mm, _, hm, hk⟩ := pair_cases k
  obtain ⟨h4, h5⟩ := pair_split i mm hm
  obtain ⟨h1, h2, _⟩ := site_split i mm (i % 2) hm (by omega)
  apply Fin.ext
  simp only [blackSite, pairOf]
  rw [hk, h4, h5, h1, h2]

theorem pairOf_whiteSite (k : Fin 2048) : pairOf (whiteSite k) = k := by
  obtain ⟨i, mm, _, hm, hk⟩ := pair_cases k
  obtain ⟨h4, h5⟩ := pair_split i mm hm
  obtain ⟨h1, h2, _⟩ := site_split i mm (1 - i % 2) hm (by omega)
  apply Fin.ext
  simp only [whiteSite, pairOf]
  rw [hk, h4, h5, h1, h2]

theorem isBlack_blackSite (k : Fin 2048) : isBlack (blackSite k) := by
  obtain ⟨i, mm, _, hm, hk⟩ := pair_cases k
  obtain ⟨h4, h5⟩ := pair_split i mm hm
  obtain ⟨h1, _, h3⟩ := site_split i mm (i % 2) hm (by omega)
  simp only [isBlack, blackSite]
  rw [hk, h4, h5, h1, h3]

theorem not_isBlack_whiteSite (k : Fin 2048) : ¬ isBlack (whiteSite k) := by
  obtain ⟨i, mm, _, hm, hk⟩ := pair_cases k
  obtain ⟨h4, h5⟩ := pair_split i mm hm
  obtain ⟨h1, _, h3⟩ := site_split i mm (1 - i % 2) hm (by omega)
  simp only [isBlack, whiteSite]
  rw [hk, h4, h5, h1, h3]
  omega

/-- One affine layer on a row: `∑ k, r k · w k j + b j`. -/
def affine {K N : ℕ} (r : Fin K → EReal) (w : Fin K → Fin N → EReal) (b : Fin N → EReal) (j : Fin N) : EReal :=
  (∑ k : Fin K, r k * w k j) + b j

/-- The rectifier, entry by entry. -/
def relu {N : ℕ} (h : Fin N → EReal) (j : Fin N) : EReal := max (h j) 0

/-- The weights of one perceptron. -/
structure Net where
  w1 : Fin 2048 → Fin 64 → EReal
  b1 : Fin 64 → EReal
  w2 : Fin 64 → Fin 64 → EReal
  b2 : Fin 64 → EReal
  w3 : Fin 64 → Fin 2048 → EReal
  b3 : Fin 2048 → EReal

/-- A perceptron's weights read off its six arrays. -/
def netOf (W1 : (⟨2, ![2048, 64]⟩ : Shape).Idx → EReal) (B1 : (⟨1, ![64]⟩ : Shape).Idx → EReal)
    (W2 : (⟨2, ![64, 64]⟩ : Shape).Idx → EReal) (B2 : (⟨1, ![64]⟩ : Shape).Idx → EReal)
    (W3 : (⟨2, ![64, 2048]⟩ : Shape).Idx → EReal) (B3 : (⟨1, ![2048]⟩ : Shape).Idx → EReal) : Net where
  w1 := fun k j => W1 (ix2 k j)
  b1 := fun j => B1 (ix1 j)
  w2 := fun k j => W2 (ix2 k j)
  b2 := fun j => B2 (ix1 j)
  w3 := fun k j => W3 (ix2 k j)
  b3 := fun j => B3 (ix1 j)

/-- The perceptron on one row of 2048 values. -/
def mlp (net : Net) (r : Fin 2048 → EReal) : Fin 2048 → EReal :=
  affine (relu (affine (relu (affine r net.w1 net.b1)) net.w2 net.b2)) net.w3 net.b3

/-- The white value `q` of a row after the layer, from the row's black values `xe` and white values `xo`. -/
def coupled (s t : Net) (xe xo : Fin 2048 → EReal) (q : Fin 2048) : EReal :=
  (xo q - mlp t xe q) * Ideal.exp (-(mlp s xe q))

/-- The black values of a lattice row, in order. -/
def blacks (row : Fin 4096 → EReal) (k : Fin 2048) : EReal := row (blackSite k)

/-- The white values of a lattice row, in order. -/
def whites (row : Fin 4096 → EReal) (k : Fin 2048) : EReal := row (whiteSite k)

/-- A lattice row after the layer: black sites kept, white sites coupled. -/
def rowOut (s t : Net) (row : Fin 4096 → EReal) (n : Fin 4096) : EReal :=
  if isBlack n then blacks row (pairOf n) else coupled s t (blacks row) (whites row) (pairOf n)

/-- Row `b` of a 16384 × 4096 array. -/
def rowAt (phi : (⟨2, ![16384, 4096]⟩ : Shape).Idx → EReal) (b : Fin 16384) (n : Fin 4096) : EReal := phi (ix2 b n)

/-- The whole layer: every row of the field, independently. -/
def layer (s t : Net) (phi : (⟨2, ![16384, 4096]⟩ : Shape).Idx → EReal) : (⟨2, ![16384, 4096]⟩ : Shape).Idx → EReal :=
  fun i => rowOut s t (rowAt phi ⟨(i 0).val, idx2_lt0 i⟩) ⟨(i 1).val, idx2_lt1 i⟩

theorem layer_apply (s t : Net) (phi : (⟨2, ![16384, 4096]⟩ : Shape).Idx → EReal) (b : Fin 16384) (n : Fin 4096) :
    layer s t phi (ix2 b n) = rowOut s t (rowAt phi b) n := rfl

end Cert.Coupling

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.KernelBody.lean ====
/-
  The kernel's body on one block of 256 rows, read entry by entry.
-/
import proofs.«152704_j6270652252843_1_alg».proof.Proof.Gen.KernelIdeal.Frame
import proofs.«152704_j6270652252843_1_alg».proof.Proof.Coupling
import proofs.«152704_j6270652252843_1_alg».proof.Proof.LibPlainProduct
import Idealize.ShloMosaic.Lib.ValueLayout

noncomputable section

namespace Cert.KernelIdeal.CouplingBody

open Cert.KernelIdeal Cert.KernelIdeal.Gen Cert.Coupling Idealize.ShloMosaic Idealize.ShloMosaic.ValueIdx

/-! ## Small facts the body's reading rests on -/

/-- The zero offset of a two-axis rectangle, as the constant function. -/
theorem zero_off2 : (![0, 0] : Fin 2 → Nat) = fun _ => 0 := funext fun a => by fin_cases a <;> rfl

/-- The zero offset of a one-axis rectangle, as the constant function. -/
theorem zero_off1 : (![0] : Fin 1 → Nat) = fun _ => 0 := funext fun a => by fin_cases a <;> rfl

/-- The all-zero binary32 word is the number `0`. -/
theorem zero_word : (Scalar.ofBits .f32 0x00000000#32 : Ideal .f32) = (0 : EReal) := Ideal.ofBits_zero_f32

/-- The exponential of an array, entry by entry. -/
theorem exp_apply {s : Shape} {φ : FTy} (a : FVec Ideal s φ) (i : s.Idx) : exp a i = Ideal.exp (a i) := rfl

/-- A bias vector `[n]`, laid out as one row `[1, n]` and repeated down `a` rows, reads at `(p, j)` its entry `j`. -/
theorem bias_apply {a n : ℕ} (b : (⟨1, ![n]⟩ : Shape).Idx → EReal) (h1 : (⟨1, ![n]⟩ : Shape).ShapeCasts ⟨2, ![1, n]⟩)
    (h2 : (⟨2, ![1, n]⟩ : Shape).Broadcasts ⟨2, ![a, n]⟩) (p : Fin a) (j : Fin n) :
    broadcastTo ⟨2, ![a, n]⟩ (shapeCast ⟨2, ![1, n]⟩ b h1) h2 (ix2 p j) = b (ix1 j) := by
  rw [broadcastTo_1b_ab_apply, shapeCast_a_1a_apply]

/-- The first product, 256 × 2048 by 2048 × 64 into zero, at `(p, j)`. -/
theorem product1_apply (a : FVec Ideal S256x2048 .bf16) (w : FVec Ideal S2048x64 .bf16) (p : Fin 256) (j : Fin 64) :
    FloatOps.matmul dot_S256x2048_S2048x64_S256x64_1_0_0_1_n_n none a w (constant S256x64 .f32 0x00000000#32) (ix2 p j)
      = ∑ k : Fin 2048, a (ix2 p k) * w (ix2 k j) :=
  Cert.LibPlainProduct.matmul_zero_plain_apply a w none p j

/-- The second product, 256 × 64 by 64 × 64 into zero, at `(p, j)`. -/
theorem product2_apply (a : FVec Ideal S256x64 .bf16) (w : FVec Ideal S64x64 .bf16) (p : Fin 256) (j : Fin 64) :
    FloatOps.matmul dot_S256x64_S64x64_S256x64_1_0_0_1_n_n none a w (constant S256x64 .f32 0x00000000#32) (ix2 p j)
      = ∑ k : Fin 64, a (ix2 p k) * w (ix2 k j) :=
  Cert.LibPlainProduct.matmul_zero_plain_apply a w none p j

/-- The third product, 256 × 64 by 64 × 2048 into zero, at `(p, j)`. -/
theorem product3_apply (a : FVec Ideal S256x64 .bf16) (w : FVec Ideal S64x2048 .bf16) (p : Fin 256) (j : Fin 2048) :
    FloatOps.matmul dot_S256x64_S64x2048_S256x2048_1_0_0_1_n_n none a w (constant S256x2048 .f32 0x00000000#32) (ix2 p j)
      = ∑ k : Fin 64, a (ix2 p k) * w (ix2 k j) :=
  Cert.LibPlainProduct.matmul_zero_plain_apply a w none p j

/-- The first output block is the first input block, unchanged. -/
theorem out14_eq (x0 : Vec Ideal S256x2048 .f32) (x1 : Vec Ideal S256x2048 .f32) (x2 : Vec Ideal S2048x64 .bf16) (x3 : Vec Ideal S64 .f32) (x4 : Vec Ideal S64x64 .bf16) (x5 : Vec Ideal S64 .f32) (x6 : Vec Ideal S64x2048 .bf16) (x7 : Vec Ideal S2048 .f32) (x8 : Vec Ideal S2048x64 .bf16) (x9 : Vec Ideal S64 .f32) (x10 : Vec Ideal S64x64 .bf16) (x11 : Vec Ideal S64 .f32) (x12 : Vec Ideal S64x2048 .bf16) (x13 : Vec Ideal S2048 .f32) :
    out0_14 (F := Ideal) x0 x1 x2 x3 x4 x5 x6 x7 x8 x9 x10 x11 x12 x13 = x0 := by
  -- The one store covers the whole buffer and the load reads the whole first block; the stored array is that block
  -- recast to its own shape, which is the identity.
  unfold out0_14
  rw [View.canon_unit_zero zero_off2]
  simp only [View.ld_unit_zero (S := S256x2048) zero_off2]
  unfold k0_pay2
  exact shapeCast_self _ _

/-- Entry `(p, q)` of the second output block: row `p` of the white block coupled to row `p` of the black block. -/
theorem out15_apply (x0 : Vec Ideal S256x2048 .f32) (x1 : Vec Ideal S256x2048 .f32) (x2 : Vec Ideal S2048x64 .bf16) (x3 : Vec Ideal S64 .f32) (x4 : Vec Ideal S64x64 .bf16) (x5 : Vec Ideal S64 .f32) (x6 : Vec Ideal S64x2048 .bf16) (x7 : Vec Ideal S2048 .f32) (x8 : Vec Ideal S2048x64 .bf16) (x9 : Vec Ideal S64 .f32) (x10 : Vec Ideal S64x64 .bf16) (x11 : Vec Ideal S64 .f32) (x12 : Vec Ideal S64x2048 .bf16) (x13 : Vec Ideal S2048 .f32) (p : Fin 256) (q : Fin 2048) :
    out0_15 (F := Ideal) x0 x1 x2 x3 x4 x5 x6 x7 x8 x9 x10 x11 x12 x13 (ix2 p q)
      = coupled (netOf x2 x3 x4 x5 x6 x7) (netOf x8 x9 x10 x11 x12 x13) (fun k => x0 (ix2 p k)) (fun k => x1 (ix2 p k)) q := by
  -- The one store covers the whole buffer and every load reads a whole block, so the buffer holds the body's
  -- arithmetic of the fourteen blocks.
  unfold out0_15
  rw [View.canon_unit_zero zero_off2]
  simp only [View.ld_unit_zero (S := S256x2048) zero_off2, View.ld_unit_zero (S := S2048x64) zero_off2,
    View.ld_unit_zero (S := S64x64) zero_off2, View.ld_unit_zero (S := S64x2048) zero_off2,
    View.ld_unit_zero (S := S64) zero_off1, View.ld_unit_zero (S := S2048) zero_off1]
  unfold k0_pay1 k0_pay3 k0_pay5 k0_pay6 k0_pay7 k0_pay4 k0_pay2
  -- Read at (p, q): sums, differences, products, maxima and the exponential act entry by entry; a cast to the same shape
  -- and the rounding to the narrower format change nothing on the extended reals; each product into the zero array
  -- is the sum over the contracted axis; each bias is its entry q (or j) whatever the row; the zero word is 0, and
  -- 0 - s = -s.
  simp only [mulf_apply, subf_apply, addf_apply, maximumf_apply, truncf_apply, broadcast_apply, exp_apply, shapeCast_self,
    product1_apply, product2_apply, product3_apply, bias_apply, zero_word, zero_sub]
  -- The coupled value unfolds to the same nested sums: (white - t(black)) · exp(-s(black)), each perceptron three
  -- affine layers with the rectifier between them.
  simp only [coupled, mlp, netOf, affine, relu]

end Cert.KernelIdeal.CouplingBody

end
-- ==== Proof.KernelEntry.lean ====
/-
  What the region finds in its arrays: the host lines before it, read entry by entry.
-/
import proofs.«152704_j6270652252843_1_alg».proof.Proof.Gen.KernelIdeal.Frame
import proofs.«152704_j6270652252843_1_alg».proof.Proof.Coupling
import Idealize.ShloMosaic.Lib.Pipeline.Value

noncomputable section

namespace Cert.KernelIdeal.CouplingEntry

open Cert.KernelIdeal Cert.KernelIdeal.Gen Cert.Coupling Idealize.ShloMosaic Idealize.ShloMosaic.ValueIdx Idealize.ShloMosaic.TcCoe Idealize.SL.Sem

variable (m : (ℓ : Loc nD τ sig) → Buf (Elt Ideal) ℓ)

/-! ## The layout operations of the split, read at an entry

A row of 4096 sites is cut into 64 board rows of 32 pairs; one side of every pair is kept; between the two sides the
mark of the board row chooses; the 64 × 32 chosen values are laid out again as one row of 2048. Each step moves an entry
to the entry with the same position in row-major order, or shifts it by a fixed offset, so an entry of the result is one
entry of the row, named here by arithmetic on the positions. -/

section Read
variable {α : Type}

/-- The row of 4096 sites viewed as 64 board rows of 32 pairs, one side (`e = 0` or `1`) of every pair kept: entry
    `(b, i, mm)` of the result is site `64·i + 2·mm + e` of row `b`. -/
theorem side_read (e : ℕ) (he : e < 2) (x : S16384x4096.Idx → α) (h1 : S16384x4096.ShapeCasts S16384x64x32x2)
    (h2 : S16384x64x32x2.Slices ![0, 0, 0, e] S16384x64x32x1) (h3 : S16384x64x32x1.ShapeCasts S16384x64x32)
    (b : Fin 16384) (i : Fin 64) (mm : Fin 32) (n : Fin 4096) (hn : n.val = 64 * i.val + 2 * mm.val + e) :
    shapeCast S16384x64x32 (extractStridedSlice S16384x64x32x1 ![0, 0, 0, e] (shapeCast S16384x64x32x2 x h1) h2) h3 (ix3 b i mm)
      = x (ix2 b n) := by
  refine (shapeCast_apply _ h3 (ix3 b i mm) (ix4 b i mm (0 : Fin 1)) ?_).trans ?_
  · rw [Shape.rowMajor_val_four, Shape.rowMajor_val_three]
    show ((b.val * 64 + i.val) * 32 + mm.val) * 1 + 0 = (b.val * 64 + i.val) * 32 + mm.val
    omega
  refine (extractStridedSlice_apply _ _ h2 (ix4 b i mm (0 : Fin 1)) (ix4 b i mm (⟨e, he⟩ : Fin 2)) ?_).trans ?_
  · intro a
    match a with
    | ⟨0, _⟩ => show b.val = 0 + b.val; omega
    | ⟨1, _⟩ => show i.val = 0 + i.val; omega
    | ⟨2, _⟩ => show mm.val = 0 + mm.val; omega
    | ⟨3, _⟩ => show e = e + 0; omega
  refine shapeCast_apply _ h1 (ix4 b i mm (⟨e, he⟩ : Fin 2)) (ix2 b n) ?_
  rw [Shape.rowMajor_val_two, Shape.rowMajor_val_four]
  show b.val * 4096 + n.val = ((b.val * 64 + i.val) * 32 + mm.val) * 2 + e
  omega

/-- The choice between the two sides, board row by board row, flattened back to 2048 entries a row: entry `(b, k)` with
    `k = 32·i + mm` chooses by the mark of board row `i` between the two sides' entries `(b, i, mm)`. -/
theorem choice_read (M : S1x64x1.Idx → BitVec 1) (A B : S16384x64x32.Idx → α)
    (h1 : S1x64x1.BroadcastsInDim S16384x64x32 (![0, 1, 2] : Fin 3 → Fin S16384x64x32.rank))
    (h2 : S16384x64x32.ShapeCasts S16384x2048) (b : Fin 16384) (k : Fin 2048) (i : Fin 64) (mm : Fin 32)
    (hk : k.val = 32 * i.val + mm.val) :
    shapeCast S16384x2048 (select (broadcastInDim S16384x64x32 ![0, 1, 2] h1 M) A B) h2 (ix2 b k)
      = Scalar.select (M (ix3 0 i 0)) (A (ix3 b i mm)) (B (ix3 b i mm)) := by
  refine (shapeCast_apply _ h2 (ix2 b k) (ix3 b i mm) ?_).trans ?_
  · rw [Shape.rowMajor_val_three, Shape.rowMajor_val_two]
    show (b.val * 64 + i.val) * 32 + mm.val = b.val * 2048 + k.val
    omega
  rw [select_apply]
  congr 1
  refine broadcastInDim_apply _ h1 M (ix3 b i mm) (ix3 0 i 0) ?_
  intro a
  match a with
  | ⟨0, _⟩ => rfl
  | ⟨1, _⟩ => rfl
  | ⟨2, _⟩ => rfl

/-- A choice by a mark that is `1` on the even board rows and `0` on the odd ones. -/
theorem select_parity (i : ℕ) (a b : α) :
    Scalar.select (if i % 2 = 0 then 1#1 else 0#1) a b = if i % 2 = 0 then a else b := by
  by_cases h : i % 2 = 0
  · rw [if_pos h, if_pos h]; rfl
  · rw [if_neg h, if_neg h]; rfl

end Read

/-! ## The mask

The mark of board row `i` is the comparison with zero of the remainder of `i` by two, the remainder taken with the sign
of the divisor: the truncated remainder, corrected by the divisor when it is not zero and its sign differs from the
divisor's. All of it is arithmetic on 32-bit words at the 64 values of `i`, so it is computed. -/

set_option maxHeartbeats 2000000 in
/-- The board-row mask the host computes: row `i` is marked when `i` is even. -/
theorem mask_apply (c : Dev nD) (i : Fin 64) :
    (V m c main_v9 : S1x64x1.Idx → BitVec 1) (ix3 0 i 0) = if i.val % 2 = 0 then 1#1 else 0#1 := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  refine (shapeCast_apply _ _ (ix3 0 i 0) (ix1 i) ?_).trans ?_
  · rw [Shape.rowMajor_val_one, Shape.rowMajor_val_three]
    show i.val = (0 * 64 + i.val) * 1 + 0
    omega
  show @Eq (BitVec 1) _ _
  revert i
  decide +kernel

/-! ## The two operands of the colours

Entry `(b, k)` with `k = 32·i + mm` is the chosen side of pair `mm` of board row `i`: on an even board row the black
site is the first of the pair, `64·i + 2·mm`, and the white one the second; on an odd board row the other way round.
That is `64·i + 2·mm + i mod 2` for black and `64·i + 2·mm + (1 − i mod 2)` for white. -/

set_option maxHeartbeats 2000000 in
/-- The first operand of the region holds the black values of every row, in order. -/
theorem V_blacks (c : Dev nD) (b : Fin 16384) (k : Fin 2048) :
    (V m c main_v12 : S16384x2048.Idx → EReal) (ix2 b k) = m ((c : Thread nD τ).loc main_arg0) (ix2 b (blackSite k)) := by
  have e : (V m c main_v12 : S16384x2048.Idx → EReal)
      = shapeCast S16384x2048
          (select (broadcastInDim S16384x64x32 ![0, 1, 2] bcast_S1x64x1_S16384x64x32_0_1_2 (V m c main_v9 : S1x64x1.Idx → BitVec 1))
            (shapeCast S16384x64x32 (extractStridedSlice S16384x64x32x1 ![0, 0, 0, 0] (shapeCast S16384x64x32x2 (m ((c : Thread nD τ).loc main_arg0) : S16384x4096.Idx → EReal) shapeCasts_S16384x4096_S16384x64x32x2) slices_S16384x64x32x2_S16384x64x32x1_0_0_0_0) shapeCasts_S16384x64x32x1_S16384x64x32)
            (shapeCast S16384x64x32 (extractStridedSlice S16384x64x32x1 ![0, 0, 0, 1] (shapeCast S16384x64x32x2 (m ((c : Thread nD τ).loc main_arg0) : S16384x4096.Idx → EReal) shapeCasts_S16384x4096_S16384x64x32x2) slices_S16384x64x32x2_S16384x64x32x1_0_0_0_1) shapeCasts_S16384x64x32x1_S16384x64x32))
          shapeCasts_S16384x64x32_S16384x2048 := by
    dsimp only [Gen.V, Gen.V0]
    simp only [Gen.hostOps0, Gen.hostOps0_1, Gen.hostOps0_2, Gen.hostOps0_3, Gen.hostOps0_4, Gen.hostOps0_5, List.flatten_cons, List.flatten_nil,
      List.append_nil, List.cons_append, List.nil_append]
    after_results_simp
    rfl
  rw [e]
  refine (choice_read _ _ _ _ _ b k ⟨k.val / 32, by omega⟩ ⟨k.val % 32, by omega⟩ (by show k.val = 32 * (k.val / 32) + k.val % 32; omega)).trans ?_
  rw [mask_apply m c, select_parity,
    side_read 0 (by omega) _ _ _ _ b _ _ ⟨64 * (k.val / 32) + 2 * (k.val % 32) + 0, by omega⟩ rfl,
    side_read 1 (by omega) _ _ _ _ b _ _ ⟨64 * (k.val / 32) + 2 * (k.val % 32) + 1, by omega⟩ rfl]
  by_cases h : (k.val / 32) % 2 = 0
  · rw [if_pos h]
    refine congrArg (fun n => m ((c : Thread nD τ).loc main_arg0) (ix2 b n)) (Fin.ext ?_)
    show 64 * (k.val / 32) + 2 * (k.val % 32) + 0 = 64 * (k.val / 32) + 2 * (k.val % 32) + (k.val / 32) % 2
    omega
  · rw [if_neg h]
    refine congrArg (fun n => m ((c : Thread nD τ).loc main_arg0) (ix2 b n)) (Fin.ext ?_)
    show 64 * (k.val / 32) + 2 * (k.val % 32) + 1 = 64 * (k.val / 32) + 2 * (k.val % 32) + (k.val / 32) % 2
    omega

set_option maxHeartbeats 2000000 in
/-- The second operand holds the white values. -/
theorem V_whites (c : Dev nD) (b : Fin 16384) (k : Fin 2048) :
    (V m c main_v13 : S16384x2048.Idx → EReal) (ix2 b k) = m ((c : Thread nD τ).loc main_arg0) (ix2 b (whiteSite k)) := by
  have e : (V m c main_v13 : S16384x2048.Idx → EReal)
      = shapeCast S16384x2048
          (select (broadcastInDim S16384x64x32 ![0, 1, 2] bcast_S1x64x1_S16384x64x32_0_1_2 (V m c main_v9 : S1x64x1.Idx → BitVec 1))
            (shapeCast S16384x64x32 (extractStridedSlice S16384x64x32x1 ![0, 0, 0, 1] (shapeCast S16384x64x32x2 (m ((c : Thread nD τ).loc main_arg0) : S16384x4096.Idx → EReal) shapeCasts_S16384x4096_S16384x64x32x2) slices_S16384x64x32x2_S16384x64x32x1_0_0_0_1) shapeCasts_S16384x64x32x1_S16384x64x32)
            (shapeCast S16384x64x32 (extractStridedSlice S16384x64x32x1 ![0, 0, 0, 0] (shapeCast S16384x64x32x2 (m ((c : Thread nD τ).loc main_arg0) : S16384x4096.Idx → EReal) shapeCasts_S16384x4096_S16384x64x32x2) slices_S16384x64x32x2_S16384x64x32x1_0_0_0_0) shapeCasts_S16384x64x32x1_S16384x64x32))
          shapeCasts_S16384x64x32_S16384x2048 := by
    dsimp only [Gen.V, Gen.V0]
    simp only [Gen.hostOps0, Gen.hostOps0_1, Gen.hostOps0_2, Gen.hostOps0_3, Gen.hostOps0_4, Gen.hostOps0_5, List.flatten_cons, List.flatten_nil,
      List.append_nil, List.cons_append, List.nil_append]
    after_results_simp
    rfl
  rw [e]
  refine (choice_read _ _ _ _ _ b k ⟨k.val / 32, by omega⟩ ⟨k.val % 32, by omega⟩ (by show k.val = 32 * (k.val / 32) + k.val % 32; omega)).trans ?_
  rw [mask_apply m c, select_parity,
    side_read 1 (by omega) _ _ _ _ b _ _ ⟨64 * (k.val / 32) + 2 * (k.val % 32) + 1, by omega⟩ rfl,
    side_read 0 (by omega) _ _ _ _ b _ _ ⟨64 * (k.val / 32) + 2 * (k.val % 32) + 0, by omega⟩ rfl]
  by_cases h : (k.val / 32) % 2 = 0
  · rw [if_pos h]
    refine congrArg (fun n => m ((c : Thread nD τ).loc main_arg0) (ix2 b n)) (Fin.ext ?_)
    show 64 * (k.val / 32) + 2 * (k.val % 32) + 1 = 64 * (k.val / 32) + 2 * (k.val % 32) + (1 - (k.val / 32) % 2)
    omega
  · rw [if_neg h]
    refine congrArg (fun n => m ((c : Thread nD τ).loc main_arg0) (ix2 b n)) (Fin.ext ?_)
    show 64 * (k.val / 32) + 2 * (k.val % 32) + 0 = 64 * (k.val / 32) + 2 * (k.val % 32) + (1 - (k.val / 32) % 2)
    omega

/-! ## The weights

A change of format is the identity on the extended reals, so each weight operand is the weight argument. -/

set_option maxHeartbeats 1000000 in
/-- The weight operands are the weight arguments: a change of format is the identity on the extended reals. -/
theorem V_v14 (c : Dev nD) : (V m c main_v14 : S2048x64.Idx → EReal) = m ((c : Thread nD τ).loc main_arg1) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl
set_option maxHeartbeats 1000000 in
theorem V_v15 (c : Dev nD) : (V m c main_v15 : S64x64.Idx → EReal) = m ((c : Thread nD τ).loc main_arg3) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl
set_option maxHeartbeats 1000000 in
theorem V_v16 (c : Dev nD) : (V m c main_v16 : S64x2048.Idx → EReal) = m ((c : Thread nD τ).loc main_arg5) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl
set_option maxHeartbeats 1000000 in
theorem V_v17 (c : Dev nD) : (V m c main_v17 : S2048x64.Idx → EReal) = m ((c : Thread nD τ).loc main_arg7) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl
set_option maxHeartbeats 1000000 in
theorem V_v18 (c : Dev nD) : (V m c main_v18 : S64x64.Idx → EReal) = m ((c : Thread nD τ).loc main_arg9) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl
set_option maxHeartbeats 1000000 in
theorem V_v19 (c : Dev nD) : (V m c main_v19 : S64x2048.Idx → EReal) = m ((c : Thread nD τ).loc main_arg11) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl

end Cert.KernelIdeal.CouplingEntry

end
-- ==== Proof.KernelRegion.lean ====
/-
  From blocks to arrays: what the two result arrays of the region hold when it ends.
-/
import proofs.«152704_j6270652252843_1_alg».proof.Proof.KernelBody
import proofs.«152704_j6270652252843_1_alg».proof.Proof.KernelEntry
import Idealize.ShloMosaic.Lib.Pipeline.Value

noncomputable section

namespace Cert.KernelIdeal.CouplingRegion

open Cert.KernelIdeal Cert.KernelIdeal.Gen Cert.Coupling Idealize.ShloMosaic Idealize.ShloMosaic.ValueIdx Idealize.ShloMosaic.TcCoe Idealize.SL.Sem Idealize.ShloMosaic.Pipeline

variable (m : (ℓ : Loc nD τ sig) → Buf (Elt Ideal) ℓ)

/-- The scale perceptron's weights, read off the arguments. -/
abbrev netS (c : Dev nD) : Net :=
  netOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The shift perceptron's weights. -/
abbrev netT (c : Dev nD) : Net :=
  netOf (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))

/-- The block index maps, decided once over the 64 points of the grid: the row-blocked windows sit at block row `t`,
    column block 0; the weight windows sit at block 0 throughout. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- The twelve weight windows sit at block 0 on every axis, at every point. -/
theorem idx_whole : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (0 : Fin 2) = 0 ∧ win0_10.index t (1 : Fin 2) = 0 ∧ win0_11.index t (0 : Fin 1) = 0
    ∧ win0_12.index t (0 : Fin 2) = 0 ∧ win0_12.index t (1 : Fin 2) = 0 ∧ win0_13.index t (0 : Fin 1) = 0 :=
  (by decide +kernel : ∀ t : Fin grid0.N, _)

/-- The grid has 64 points. -/
theorem point_lt (t : Fin cfg0.N) : t.val < 64 := t.isLt

/-- Entry `(p, q)` of the first operand's block at point `t` is entry `(256·t + p, q)` of the operand. -/
theorem blk0_apply (c : Dev nD) (t : Fin cfg0.N) (p : Fin 256) (q : Fin 2048) (r : Fin 16384) (hr : r.val = 256 * t.val + p.val) :
    (iblk m c 0 t : Vec Ideal S256x2048 .f32) (ix2 p q) = (V m c main_v12 : S16384x2048.Idx → EReal) (ix2 r q) := by
  obtain ⟨e0, e1, -⟩ := idx_rows t
  unfold iblk
  rw [View.read_apply]
  show (V m c main_v12 : S16384x2048.Idx → EReal) _ = _
  congr 1
  funext a
  apply Fin.ext
  match a with
  | ⟨0, _⟩ => show win0_0.index t 0 * 256 + 1 * p.val = r.val; rw [e0, hr]; omega
  | ⟨1, _⟩ => show win0_0.index t 1 * 2048 + 1 * q.val = q.val; rw [e1]; omega

/-- The second operand's block, likewise. -/
theorem blk1_apply (c : Dev nD) (t : Fin cfg0.N) (p : Fin 256) (q : Fin 2048) (r : Fin 16384) (hr : r.val = 256 * t.val + p.val) :
    (iblk m c 1 t : Vec Ideal S256x2048 .f32) (ix2 p q) = (V m c main_v13 : S16384x2048.Idx → EReal) (ix2 r q) := by
  obtain ⟨-, -, e0, e1, -⟩ := idx_rows t
  unfold iblk
  rw [View.read_apply]
  show (V m c main_v13 : S16384x2048.Idx → EReal) _ = _
  congr 1
  funext a
  apply Fin.ext
  match a with
  | ⟨0, _⟩ => show win0_1.index t 0 * 256 + 1 * p.val = r.val; rw [e0, hr]; omega
  | ⟨1, _⟩ => show win0_1.index t 1 * 2048 + 1 * q.val = q.val; rw [e1]; omega

/-! Each weight window's one block is its whole array, at every point. -/

theorem blk2_eq (c : Dev nD) (t : Fin cfg0.N) : (iblk m c 2 t : Vec Ideal S2048x64 .bf16) = (V m c main_v14 : S2048x64.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_v14 : S2048x64.Idx → EReal) _ = _
  congr 1
  funext a
  apply Fin.ext
  match a with
  | ⟨0, _⟩ => show win0_2.index t 0 * 2048 + 1 * (y 0).val = (y 0).val; rw [e2_0]; omega
  | ⟨1, _⟩ => show win0_2.index t 1 * 64 + 1 * (y 1).val = (y 1).val; rw [e2_1]; omega

theorem blk3_eq (c : Dev nD) (t : Fin cfg0.N) : (iblk m c 3 t : Vec Ideal S64 .f32) = (V m c main_arg2 : S64.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_arg2 : S64.Idx → EReal) _ = _
  congr 1
  funext a
  apply Fin.ext
  match a with
  | ⟨0, _⟩ => show win0_3.index t 0 * 64 + 1 * (y 0).val = (y 0).val; rw [e3_0]; omega

theorem blk4_eq (c : Dev nD) (t : Fin cfg0.N) : (iblk m c 4 t : Vec Ideal S64x64 .bf16) = (V m c main_v15 : S64x64.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_v15 : S64x64.Idx → EReal) _ = _
  congr 1
  funext a
  apply Fin.ext
  match a with
  | ⟨0, _⟩ => show win0_4.index t 0 * 64 + 1 * (y 0).val = (y 0).val; rw [e4_0]; omega
  | ⟨1, _⟩ => show win0_4.index t 1 * 64 + 1 * (y 1).val = (y 1).val; rw [e4_1]; omega

theorem blk5_eq (c : Dev nD) (t : Fin cfg0.N) : (iblk m c 5 t : Vec Ideal S64 .f32) = (V m c main_arg4 : S64.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_arg4 : S64.Idx → EReal) _ = _
  congr 1
  funext a
  apply Fin.ext
  match a with
  | ⟨0, _⟩ => show win0_5.index t 0 * 64 + 1 * (y 0).val = (y 0).val; rw [e5_0]; omega

theorem blk6_eq (c : Dev nD) (t : Fin cfg0.N) : (iblk m c 6 t : Vec Ideal S64x2048 .bf16) = (V m c main_v16 : S64x2048.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_v16 : S64x2048.Idx → EReal) _ = _
  congr 1
  funext a
  apply Fin.ext
  match a with
  | ⟨0, _⟩ => show win0_6.index t 0 * 64 + 1 * (y 0).val = (y 0).val; rw [e6_0]; omega
  | ⟨1, _⟩ => show win0_6.index t 1 * 2048 + 1 * (y 1).val = (y 1).val; rw [e6_1]; omega

theorem blk7_eq (c : Dev nD) (t : Fin cfg0.N) : (iblk m c 7 t : Vec Ideal S2048 .f32) = (V m c main_arg6 : S2048.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_arg6 : S2048.Idx → EReal) _ = _
  congr 1
  funext a
  apply Fin.ext
  match a with
  | ⟨0, _⟩ => show win0_7.index t 0 * 2048 + 1 * (y 0).val = (y 0).val; rw [e7_0]; omega

theorem blk8_eq (c : Dev nD) (t : Fin cfg0.N) : (iblk m c 8 t : Vec Ideal S2048x64 .bf16) = (V m c main_v17 : S2048x64.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_v17 : S2048x64.Idx → EReal) _ = _
  congr 1
  funext a
  apply Fin.ext
  match a with
  | ⟨0, _⟩ => show win0_8.index t 0 * 2048 + 1 * (y 0).val = (y 0).val; rw [e8_0]; omega
  | ⟨1, _⟩ => show win0_8.index t 1 * 64 + 1 * (y 1).val = (y 1).val; rw [e8_1]; omega

theorem blk9_eq (c : Dev nD) (t : Fin cfg0.N) : (iblk m c 9 t : Vec Ideal S64 .f32) = (V m c main_arg8 : S64.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_arg8 : S64.Idx → EReal) _ = _
  congr 1
  funext a
  apply Fin.ext
  match a with
  | ⟨0, _⟩ => show win0_9.index t 0 * 64 + 1 * (y 0).val = (y 0).val; rw [e9_0]; omega

theorem blk10_eq (c : Dev nD) (t : Fin cfg0.N) : (iblk m c 10 t : Vec Ideal S64x64 .bf16) = (V m c main_v18 : S64x64.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_v18 : S64x64.Idx → EReal) _ = _
  congr 1
  funext a
  apply Fin.ext
  match a with
  | ⟨0, _⟩ => show win0_10.index t 0 * 64 + 1 * (y 0).val = (y 0).val; rw [e10_0]; omega
  | ⟨1, _⟩ => show win0_10.index t 1 * 64 + 1 * (y 1).val = (y 1).val; rw [e10_1]; omega

theorem blk11_eq (c : Dev nD) (t : Fin cfg0.N) : (iblk m c 11 t : Vec Ideal S64 .f32) = (V m c main_arg10 : S64.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_arg10 : S64.Idx → EReal) _ = _
  congr 1
  funext a
  apply Fin.ext
  match a with
  | ⟨0, _⟩ => show win0_11.index t 0 * 64 + 1 * (y 0).val = (y 0).val; rw [e11_0]; omega

theorem blk12_eq (c : Dev nD) (t : Fin cfg0.N) : (iblk m c 12 t : Vec Ideal S64x2048 .bf16) = (V m c main_v19 : S64x2048.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_v19 : S64x2048.Idx → EReal) _ = _
  congr 1
  funext a
  apply Fin.ext
  match a with
  | ⟨0, _⟩ => show win0_12.index t 0 * 64 + 1 * (y 0).val = (y 0).val; rw [e12_0]; omega
  | ⟨1, _⟩ => show win0_12.index t 1 * 2048 + 1 * (y 1).val = (y 1).val; rw [e12_1]; omega

theorem blk13_eq (c : Dev nD) (t : Fin cfg0.N) : (iblk m c 13 t : Vec Ideal S2048 .f32) = (V m c main_arg12 : S2048.Idx → EReal) := by
  obtain ⟨e2_0, e2_1, e3_0, e4_0, e4_1, e5_0, e6_0, e6_1, e7_0, e8_0, e8_1, e9_0, e10_0, e10_1, e11_0, e12_0, e12_1, e13_0⟩ := idx_whole t
  funext y
  unfold iblk
  rw [View.read_apply]
  show (V m c main_arg12 : S2048.Idx → EReal) _ = _
  congr 1
  funext a
  apply Fin.ext
  match a with
  | ⟨0, _⟩ => show win0_13.index t 0 * 2048 + 1 * (y 0).val = (y 0).val; rw [e13_0]; omega

/-! ## The two whole-array functions -/

/-- What the first result array ends holding: entry `(b, k)` is the `k`-th black value of row `b`. -/
def G14 (c : Dev nD) : S16384x2048.Idx → EReal := fun i =>
  blacks (rowAt (m ((c : Thread nD τ).loc main_arg0)) ⟨(i 0).val, idx2_lt0 i⟩) ⟨(i 1).val, idx2_lt1 i⟩

/-- What the second result array ends holding: entry `(b, k)` is the `k`-th white value of row `b` coupled to the
    row's black values. -/
def G15 (c : Dev nD) : S16384x2048.Idx → EReal := fun i =>
  coupled (netS m c) (netT m c) (blacks (rowAt (m ((c : Thread nD τ).loc main_arg0)) ⟨(i 0).val, idx2_lt0 i⟩))
    (whites (rowAt (m ((c : Thread nD τ).loc main_arg0)) ⟨(i 0).val, idx2_lt0 i⟩)) ⟨(i 1).val, idx2_lt1 i⟩

/-- `G14` at an index whose coordinates are `b` and `k`. -/
theorem G14_apply (c : Dev nD) (i : S16384x2048.Idx) (b : Fin 16384) (k : Fin 2048) (h0 : (i 0).val = b.val) (h1 : (i 1).val = k.val) :
    G14 m c i = blacks (rowAt (m ((c : Thread nD τ).loc main_arg0)) b) k := by
  have hb : (⟨(i 0).val, idx2_lt0 i⟩ : Fin 16384) = b := Fin.ext h0
  have hk : (⟨(i 1).val, idx2_lt1 i⟩ : Fin 2048) = k := Fin.ext h1
  show blacks (rowAt (m ((c : Thread nD τ).loc main_arg0)) ⟨(i 0).val, idx2_lt0 i⟩) ⟨(i 1).val, idx2_lt1 i⟩ = _
  rw [hb, hk]

/-- `G15` at an index whose coordinates are `b` and `k`. -/
theorem G15_apply (c : Dev nD) (i : S16384x2048.Idx) (b : Fin 16384) (k : Fin 2048) (h0 : (i 0).val = b.val) (h1 : (i 1).val = k.val) :
    G15 m c i = coupled (netS m c) (netT m c) (blacks (rowAt (m ((c : Thread nD τ).loc main_arg0)) b)) (whites (rowAt (m ((c : Thread nD τ).loc main_arg0)) b)) k := by
  have hb : (⟨(i 0).val, idx2_lt0 i⟩ : Fin 16384) = b := Fin.ext h0
  have hk : (⟨(i 1).val, idx2_lt1 i⟩ : Fin 2048) = k := Fin.ext h1
  show coupled (netS m c) (netT m c) (blacks (rowAt (m ((c : Thread nD τ).loc main_arg0)) ⟨(i 0).val, idx2_lt0 i⟩))
    (whites (rowAt (m ((c : Thread nD τ).loc main_arg0)) ⟨(i 0).val, idx2_lt0 i⟩)) ⟨(i 1).val, idx2_lt1 i⟩ = _
  rw [hb, hk]

/-! ## What each point writes back -/

/-- Row `p` of the black block at point `t` is the black values of row `256·t + p` of the field. -/
theorem blacks_row (c : Dev nD) (t : Fin cfg0.N) (p : Fin 256) (r : Fin 16384) (hr : r.val = 256 * t.val + p.val) :
    (fun k : Fin 2048 => (iblk m c 0 t : Vec Ideal S256x2048 .f32) (ix2 p k)) = blacks (rowAt (m ((c : Thread nD τ).loc main_arg0)) r) :=
  funext fun k => (blk0_apply m c t p k r hr).trans (CouplingEntry.V_blacks m c r k)

/-- Row `p` of the white block, likewise. -/
theorem whites_row (c : Dev nD) (t : Fin cfg0.N) (p : Fin 256) (r : Fin 16384) (hr : r.val = 256 * t.val + p.val) :
    (fun k : Fin 2048 => (iblk m c 1 t : Vec Ideal S256x2048 .f32) (ix2 p k)) = whites (rowAt (m ((c : Thread nD τ).loc main_arg0)) r) :=
  funext fun k => (blk1_apply m c t p k r hr).trans (CouplingEntry.V_whites m c r k)

/-- The black block at point `t` is block `t` of `G14`. -/
theorem blk14_row (c : Dev nD) (t : Fin cfg0.N) (y : S256x2048.Idx) :
    (iblk m c 0 t : Vec Ideal S256x2048 .f32) y = G14 m c (((cfg0.win 14).blk t).view.emb y) := by
  obtain ⟨p, q, rfl⟩ : ∃ (p : Fin 256) (q : Fin 2048), y = ix2 p q := ⟨y 0, y 1, eq_ix2 y⟩
  obtain ⟨-, -, -, -, e0, e1, -⟩ := idx_rows t
  have ht := point_lt t
  have hr : (⟨256 * t.val + p.val, by omega⟩ : Fin 16384).val = 256 * t.val + p.val := rfl
  refine (congrFun (blacks_row m c t p _ hr) q).trans (G14_apply m c _ _ q ?_ ?_).symm
  · show win0_14.index t 0 * 256 + 1 * p.val = 256 * t.val + p.val; rw [e0]; omega
  · show win0_14.index t 1 * 2048 + 1 * q.val = q.val; rw [e1]; omega

/-- What point `t` writes back to the first result array is block `t` of `G14`: the body leaves the black block unchanged. -/
theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14, CouplingBody.out14_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)]
  funext y
  exact blk14_row m c t y

/-- The coupled block at point `t` is block `t` of `G15`: the weight blocks are the weight arguments, and rows `p` of
    the two row blocks are the black and white values of row `256·t + p`. -/
theorem blk15_row (c : Dev nD) (t : Fin cfg0.N) (y : S256x2048.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = G15 m c (((cfg0.win 15).blk t).view.emb y) := by
  obtain ⟨p, q, rfl⟩ : ∃ (p : Fin 256) (q : Fin 2048), y = ix2 p q := ⟨y 0, y 1, eq_ix2 y⟩
  obtain ⟨-, -, -, -, -, -, e0, e1⟩ := idx_rows t
  have ht := point_lt t
  have hr : (⟨256 * t.val + p.val, by omega⟩ : Fin 16384).val = 256 * t.val + p.val := rfl
  refine (CouplingBody.out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  rw [blacks_row m c t p _ hr, whites_row m c t p _ hr,
    blk2_eq m c t, blk3_eq m c t, blk4_eq m c t, blk5_eq m c t, blk6_eq m c t, blk7_eq m c t,
    blk8_eq m c t, blk9_eq m c t, blk10_eq m c t, blk11_eq m c t, blk12_eq m c t, blk13_eq m c t,
    CouplingEntry.V_v14 m c, CouplingEntry.V_v15 m c, CouplingEntry.V_v16 m c,
    CouplingEntry.V_v17 m c, CouplingEntry.V_v18 m c, CouplingEntry.V_v19 m c,
    V_main_arg2 m c, V_main_arg4 m c, V_main_arg6 m c, V_main_arg8 m c, V_main_arg10 m c, V_main_arg12 m c]
  refine (G15_apply m c _ _ q ?_ ?_).symm
  · show win0_15.index t 0 * 256 + 1 * p.val = 256 * t.val + p.val; rw [e0]; omega
  · show win0_15.index t 1 * 2048 + 1 * q.val = q.val; rw [e1]; omega

/-- What point `t` writes back to the second result array is block `t` of `G15`. -/
theorem flushed15_eq (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15]
  funext y
  exact blk15_row m c t y

/-! ## The blocks tile the arrays -/

/-- An index of a result array is in point `t`'s block iff each coordinate is in the block's range on its axis. -/
theorem mem_blk14 (t : Fin cfg0.N) (i : S16384x2048.Idx) :
    i ∈ ((cfg0.win 14).blk t).view.set ↔ ∀ a : Fin 2, win0_14.index t a * S256x2048.size a ≤ (i a).val ∧ (i a).val < win0_14.index t a * S256x2048.size a + S256x2048.size a := by
  show i ∈ ((View.whole main_v20_0).slice (win0_14.rect t)).set ↔ _
  rw [View.set_slice_whole, Rect.mem_set_unit]
  exact Iff.rfl

/-- The same for the second result array. -/
theorem mem_blk15 (t : Fin cfg0.N) (i : S16384x2048.Idx) :
    i ∈ ((cfg0.win 15).blk t).view.set ↔ ∀ a : Fin 2, win0_15.index t a * S256x2048.size a ≤ (i a).val ∧ (i a).val < win0_15.index t a * S256x2048.size a + S256x2048.size a := by
  show i ∈ ((View.whole main_v20_1).slice (win0_15.rect t)).set ↔ _
  rw [View.set_slice_whole, Rect.mem_set_unit]
  exact Iff.rfl

/-- The point whose block holds row `r`: `r / 256`. -/
def pointOf (i : S16384x2048.Idx) : Fin cfg0.N := ⟨(i 0).val / 256, by have := idx2_lt0 i; show _ < 64; omega⟩

theorem pointOf_val (i : S16384x2048.Idx) : (pointOf i).val = (i 0).val / 256 := rfl

/-- Row `r` lies in the block of point `r / 256`, which spans all columns. -/
theorem cover14 (i : S16384x2048.Idx) : ∃ t : Fin cfg0.N, (cfg0.win 14).flush t = true ∧ i ∈ ((cfg0.win 14).blk t).view.set := by
  have h0 : (i 0).val < 16384 := idx2_lt0 i
  have h1 : (i 1).val < 2048 := idx2_lt1 i
  obtain ⟨-, -, -, -, e0, e1, -⟩ := idx_rows (pointOf i)
  have hp := pointOf_val i
  refine ⟨pointOf i, flush0_14 _, ?_⟩
  rw [mem_blk14]
  intro a
  match a with
  | ⟨0, _⟩ => show win0_14.index (pointOf i) 0 * 256 ≤ (i 0).val ∧ (i 0).val < win0_14.index (pointOf i) 0 * 256 + 256; rw [e0, hp]; omega
  | ⟨1, _⟩ => show win0_14.index (pointOf i) 1 * 2048 ≤ (i 1).val ∧ (i 1).val < win0_14.index (pointOf i) 1 * 2048 + 2048; rw [e1]; omega

/-- The same for the second result array. -/
theorem cover15 (i : S16384x2048.Idx) : ∃ t : Fin cfg0.N, (cfg0.win 15).flush t = true ∧ i ∈ ((cfg0.win 15).blk t).view.set := by
  have h0 : (i 0).val < 16384 := idx2_lt0 i
  have h1 : (i 1).val < 2048 := idx2_lt1 i
  obtain ⟨-, -, -, -, -, -, e0, e1⟩ := idx_rows (pointOf i)
  have hp := pointOf_val i
  refine ⟨pointOf i, flush0_15 _, ?_⟩
  rw [mem_blk15]
  intro a
  match a with
  | ⟨0, _⟩ => show win0_15.index (pointOf i) 0 * 256 ≤ (i 0).val ∧ (i 0).val < win0_15.index (pointOf i) 0 * 256 + 256; rw [e0, hp]; omega
  | ⟨1, _⟩ => show win0_15.index (pointOf i) 1 * 2048 ≤ (i 1).val ∧ (i 1).val < win0_15.index (pointOf i) 1 * 2048 + 2048; rw [e1]; omega

/-! ## The arrays when the region ends -/

/-- Every point writes its block of `G14` and the blocks tile the array, so the array ends holding `G14`. -/
theorem final14 (c : Dev nD) : (dats m 0 c).arrAt 14 cfg0.N = G14 m c :=
  (dats m 0 c).arrAt_eq_of_cover 14 (G14 m c) (fun t _ => flushed14_eq m c t) cover14

/-- Likewise the second result array ends holding `G15`. -/
theorem final15 (c : Dev nD) : (dats m 0 c).arrAt 15 cfg0.N = G15 m c :=
  (dats m 0 c).arrAt_eq_of_cover 15 (G15 m c) (fun t _ => flushed15_eq m c t) cover15

/-- The first result array holds the black values of every row. -/
theorem arr14_apply (c : Dev nD) (b : Fin 16384) (k : Fin 2048) :
    ((dats m 0 c).arrAt 14 cfg0.N : S16384x2048.Idx → EReal) (ix2 b k)
      = blacks (rowAt (m ((c : Thread nD τ).loc main_arg0)) b) k :=
  (congrFun (final14 m c) (ix2 b k)).trans (G14_apply m c (ix2 b k) b k rfl rfl)

/-- The second result array holds every row's white values coupled to its black values. -/
theorem arr15_apply (c : Dev nD) (b : Fin 16384) (k : Fin 2048) :
    ((dats m 0 c).arrAt 15 cfg0.N : S16384x2048.Idx → EReal) (ix2 b k)
      = coupled (netS m c) (netT m c) (blacks (rowAt (m ((c : Thread nD τ).loc main_arg0)) b))
          (whites (rowAt (m ((c : Thread nD τ).loc main_arg0)) b)) k :=
  (congrFun (final15 m c) (ix2 b k)).trans (G15_apply m c (ix2 b k) b k rfl rfl)

end Cert.KernelIdeal.CouplingRegion

end
-- ==== Proof.KernelTail.lean ====
/-
  The host lines after the region: the two result arrays interleaved back into lattice order.

  The region leaves two arrays of 2048 values per row, one per colour. The lines after it read each row of 2048 as 64
  board rows of 32 pairs, choose per board row which colour comes first in a pair (the black site is the left one on an
  even board row, the right one on an odd board row), put the two choices side by side on a new last axis of length two,
  and flatten (64, 32, 2) back to 4096 sites. So site 64·i + 2·mm + e of a row reads slot e of pair mm of board row i:
  the colour that board row's parity and e pick, at pair number 32·i + mm.
-/
import proofs.«152704_j6270652252843_1_alg».proof.Proof.KernelEntry
import Idealize.ShloMosaic.Lib.Pipeline.Value

noncomputable section

namespace Cert.KernelIdeal.CouplingTail

open Cert.KernelIdeal Cert.KernelIdeal.Gen Cert.Coupling Idealize.ShloMosaic Idealize.ShloMosaic.ValueIdx Idealize.ShloMosaic.TcCoe Idealize.SL.Sem Idealize.ShloMosaic.Pipeline

/-! ## Each layout step read at an index -/

section Layout

variable {α : Type}

/-- A row of 2048 read as 64 board rows of 32 pairs: entry (b, i, mm) is entry (b, 32·i + mm). -/
theorem split_apply (z : S16384x2048.Idx → α) (h : S16384x2048.ShapeCasts S16384x64x32)
    (b : Fin 16384) (i : Fin 64) (mm : Fin 32) :
    shapeCast S16384x64x32 z h (ix3 b i mm) = z (ix2 b ⟨32 * i.val + mm.val, by omega⟩) := by
  refine shapeCast_apply z h (ix3 b i mm) (ix2 b ⟨32 * i.val + mm.val, by omega⟩) ?_
  rw [Shape.rowMajor_val_two, Shape.rowMajor_val_three]
  show b.val * 2048 + (32 * i.val + mm.val) = (b.val * 64 + i.val) * 32 + mm.val
  omega

/-- The board-row mask copied along rows and pairs. -/
theorem mask_bcast_apply (msk : S1x64x1.Idx → BitVec 1)
    (h : S1x64x1.BroadcastsInDim S16384x64x32 (![0, 1, 2] : Fin 3 → Fin S16384x64x32.rank))
    (b : Fin 16384) (i : Fin 64) (mm : Fin 32) :
    broadcastInDim S16384x64x32 ![0, 1, 2] h msk (ix3 b i mm) = msk (ix3 0 i 0) := by
  refine broadcastInDim_apply _ h msk (ix3 b i mm) (ix3 0 i 0) fun a => ?_
  match a with
  | ⟨0, _⟩ => rfl
  | ⟨1, _⟩ => rfl
  | ⟨2, _⟩ => rfl

/-- A trailing unit axis added. -/
theorem unit_bcast_apply (x : S16384x64x32.Idx → α)
    (h : S16384x64x32.BroadcastsInDim S16384x64x32x1 (![0, 1, 2] : Fin 3 → Fin S16384x64x32x1.rank))
    (b : Fin 16384) (i : Fin 64) (mm : Fin 32) (u : Fin 1) :
    broadcastInDim S16384x64x32x1 ![0, 1, 2] h x (ix4 b i mm u) = x (ix3 b i mm) := by
  refine broadcastInDim_apply _ h x (ix4 b i mm u) (ix3 b i mm) fun a => ?_
  match a with
  | ⟨0, _⟩ => rfl
  | ⟨1, _⟩ => rfl
  | ⟨2, _⟩ => rfl

/-- Two arrays laid side by side along a last axis of length two: slot 0 reads the first. -/
theorem pair_apply_zero (x₁ x₂ : S16384x64x32x1.Idx → α)
    (h : Shape.Concatenates [S16384x64x32x1, S16384x64x32x1] S16384x64x32x2 3)
    (b : Fin 16384) (i : Fin 64) (mm : Fin 32) :
    concatenate S16384x64x32x2 3 [⟨S16384x64x32x1, x₁⟩, ⟨S16384x64x32x1, x₂⟩] h (ix4 b i mm 0) = x₁ (ix4 b i mm 0) := by
  refine concatenate_pair_apply_left 3 x₁ x₂ h (ix4 b i mm 0) rfl (ix4 b i mm 0) fun a => ?_
  match a with
  | ⟨0, _⟩ => rfl
  | ⟨1, _⟩ => rfl
  | ⟨2, _⟩ => rfl
  | ⟨3, _⟩ => rfl

/-- Slot 1 reads the second. -/
theorem pair_apply_one (x₁ x₂ : S16384x64x32x1.Idx → α)
    (h : Shape.Concatenates [S16384x64x32x1, S16384x64x32x1] S16384x64x32x2 3)
    (b : Fin 16384) (i : Fin 64) (mm : Fin 32) :
    concatenate S16384x64x32x2 3 [⟨S16384x64x32x1, x₁⟩, ⟨S16384x64x32x1, x₂⟩] h (ix4 b i mm 1) = x₂ (ix4 b i mm 0) := by
  refine concatenate_pair_apply_right 3 x₁ x₂ h (ix4 b i mm 1) rfl rfl (ix4 b i mm 0) (fun a ha => ?_) rfl
  match a, ha with
  | ⟨0, _⟩, _ => rfl
  | ⟨1, _⟩, _ => rfl
  | ⟨2, _⟩, _ => rfl
  | ⟨3, _⟩, ha => exact absurd rfl ha

/-- The four-axis array flattened back to lattice rows: site 64·i + 2·mm + e is entry (i, mm, e). -/
theorem join_apply (y : S16384x64x32x2.Idx → α) (h : S16384x64x32x2.ShapeCasts S16384x4096)
    (b : Fin 16384) (n : Fin 4096) (i : Fin 64) (mm : Fin 32) (e : Fin 2) (hn : n.val = 64 * i.val + 2 * mm.val + e.val) :
    shapeCast S16384x4096 y h (ix2 b n) = y (ix4 b i mm e) := by
  refine shapeCast_apply y h (ix2 b n) (ix4 b i mm e) ?_
  rw [Shape.rowMajor_val_two, Shape.rowMajor_val_four]
  show ((b.val * 64 + i.val) * 32 + mm.val) * 2 + e.val = b.val * 4096 + n.val
  omega

/-- The interleaved array, as a term over the two colour arrays and the board-row mask. -/
abbrev interleaved (ze zo : S16384x2048.Idx → α) (msk : S1x64x1.Idx → BitVec 1)
    (h1 : S16384x2048.ShapeCasts S16384x64x32)
    (h2 : S1x64x1.BroadcastsInDim S16384x64x32 (![0, 1, 2] : Fin 3 → Fin S16384x64x32.rank))
    (h3 : S16384x64x32.BroadcastsInDim S16384x64x32x1 (![0, 1, 2] : Fin 3 → Fin S16384x64x32x1.rank))
    (h4 : Shape.Concatenates [S16384x64x32x1, S16384x64x32x1] S16384x64x32x2 3)
    (h5 : S16384x64x32x2.ShapeCasts S16384x4096) : S16384x4096.Idx → α :=
  shapeCast S16384x4096
    (concatenate S16384x64x32x2 3
      [⟨S16384x64x32x1, broadcastInDim S16384x64x32x1 ![0, 1, 2] h3
          (select (broadcastInDim S16384x64x32 ![0, 1, 2] h2 msk) (shapeCast S16384x64x32 ze h1) (shapeCast S16384x64x32 zo h1))⟩,
       ⟨S16384x64x32x1, broadcastInDim S16384x64x32x1 ![0, 1, 2] h3
          (select (broadcastInDim S16384x64x32 ![0, 1, 2] h2 msk) (shapeCast S16384x64x32 zo h1) (shapeCast S16384x64x32 ze h1))⟩] h4) h5

section
variable (ze zo : S16384x2048.Idx → α) (msk : S1x64x1.Idx → BitVec 1)
    (hmsk : ∀ i : Fin 64, msk (ix3 0 i 0) = if i.val % 2 = 0 then 1#1 else 0#1)
    (h1 : S16384x2048.ShapeCasts S16384x64x32)
    (h2 : S1x64x1.BroadcastsInDim S16384x64x32 (![0, 1, 2] : Fin 3 → Fin S16384x64x32.rank))
    (h3 : S16384x64x32.BroadcastsInDim S16384x64x32x1 (![0, 1, 2] : Fin 3 → Fin S16384x64x32x1.rank))
    (h4 : Shape.Concatenates [S16384x64x32x1, S16384x64x32x1] S16384x64x32x2 3)
    (h5 : S16384x64x32x2.ShapeCasts S16384x4096)
include hmsk

/-- An even site 64·i + 2·mm: the first colour array on an even board row, the second on an odd one. -/
theorem interleaved_even (b : Fin 16384) (n : Fin 4096) (i : Fin 64) (mm : Fin 32) (hn : n.val = 64 * i.val + 2 * mm.val) :
    interleaved ze zo msk h1 h2 h3 h4 h5 (ix2 b n)
      = if i.val % 2 = 0 then ze (ix2 b ⟨32 * i.val + mm.val, by omega⟩) else zo (ix2 b ⟨32 * i.val + mm.val, by omega⟩) := by
  refine (join_apply _ h5 b n i mm 0 hn).trans ?_
  refine (pair_apply_zero _ _ h4 b i mm).trans ?_
  refine (unit_bcast_apply _ h3 b i mm 0).trans ?_
  rw [select_apply, mask_bcast_apply, hmsk, split_apply, split_apply]
  by_cases hi : i.val % 2 = 0
  · rw [if_pos hi, if_pos hi, select_one]
  · rw [if_neg hi, if_neg hi, select_zero]

/-- An odd site 64·i + 2·mm + 1: the other way round. -/
theorem interleaved_odd (b : Fin 16384) (n : Fin 4096) (i : Fin 64) (mm : Fin 32) (hn : n.val = 64 * i.val + 2 * mm.val + 1) :
    interleaved ze zo msk h1 h2 h3 h4 h5 (ix2 b n)
      = if i.val % 2 = 0 then zo (ix2 b ⟨32 * i.val + mm.val, by omega⟩) else ze (ix2 b ⟨32 * i.val + mm.val, by omega⟩) := by
  refine (join_apply _ h5 b n i mm 1 hn).trans ?_
  refine (pair_apply_one _ _ h4 b i mm).trans ?_
  refine (unit_bcast_apply _ h3 b i mm 0).trans ?_
  rw [select_apply, mask_bcast_apply, hmsk, split_apply, split_apply]
  by_cases hi : i.val % 2 = 0
  · rw [if_pos hi, if_pos hi, select_one]
  · rw [if_neg hi, if_neg hi, select_zero]

/-- Site `n` of row `b` of the interleaved array: the first colour array at the site's pair when the site is black,
    the second's when it is white. -/
theorem interleaved_apply (b : Fin 16384) (n : Fin 4096) :
    interleaved ze zo msk h1 h2 h3 h4 h5 (ix2 b n)
      = if isBlack n then ze (ix2 b (pairOf n)) else zo (ix2 b (pairOf n)) := by
  rcases Nat.mod_two_eq_zero_or_one n.val with h0 | h0
  · refine (interleaved_even ze zo msk hmsk h1 h2 h3 h4 h5 b n ⟨n.val / 64, by omega⟩ ⟨n.val % 64 / 2, by omega⟩
      (by show n.val = 64 * (n.val / 64) + 2 * (n.val % 64 / 2); omega)).trans ?_
    by_cases hi : n.val / 64 % 2 = 0
    · have hB : isBlack n := by unfold isBlack; omega
      rw [if_pos hB]; exact if_pos hi
    · have hB : ¬ isBlack n := by unfold isBlack; omega
      rw [if_neg hB]; exact if_neg hi
  · refine (interleaved_odd ze zo msk hmsk h1 h2 h3 h4 h5 b n ⟨n.val / 64, by omega⟩ ⟨n.val % 64 / 2, by omega⟩
      (by show n.val = 64 * (n.val / 64) + 2 * (n.val % 64 / 2) + 1; omega)).trans ?_
    by_cases hi : n.val / 64 % 2 = 0
    · have hB : ¬ isBlack n := by unfold isBlack; omega
      rw [if_neg hB]; exact if_pos hi
    · have hB : isBlack n := by unfold isBlack; omega
      rw [if_pos hB]; exact if_neg hi

end

/-- Equal operands give equal interleavings. -/
theorem interleaved_congr {ze ze' zo zo' : S16384x2048.Idx → α} {msk msk' : S1x64x1.Idx → BitVec 1}
    (e1 : ze = ze') (e2 : zo = zo') (e3 : msk = msk')
    (h1 : S16384x2048.ShapeCasts S16384x64x32)
    (h2 : S1x64x1.BroadcastsInDim S16384x64x32 (![0, 1, 2] : Fin 3 → Fin S16384x64x32.rank))
    (h3 : S16384x64x32.BroadcastsInDim S16384x64x32x1 (![0, 1, 2] : Fin 3 → Fin S16384x64x32x1.rank))
    (h4 : Shape.Concatenates [S16384x64x32x1, S16384x64x32x1] S16384x64x32x2 3)
    (h5 : S16384x64x32x2.ShapeCasts S16384x4096) :
    interleaved ze zo msk h1 h2 h3 h4 h5 = interleaved ze' zo' msk' h1 h2 h3 h4 h5 := by
  subst e1 e2 e3; rfl

end Layout

/-! ## The four stretches of host lines are that interleaving -/

/-- Whatever the buffers hold before them, the lines after the region leave in the result buffer the interleaving of
    the two result buffers under the mask buffer. -/
theorem tail_term (Z : Valuation τ sig (Elt Ideal)) :
    (StableHlo.after (List.flatten [hostOps1, hostOps1_1, hostOps1_2, hostOps1_3]) Z (Proc.devRef .tc main_v28) : S16384x4096.Idx → EReal)
      = interleaved (Z (Proc.devRef .tc main_v20_0) : S16384x2048.Idx → EReal) (Z (Proc.devRef .tc main_v20_1) : S16384x2048.Idx → EReal)
          (Z (Proc.devRef .tc main_v9) : S1x64x1.Idx → BitVec 1)
          Facts₀.shapeCasts_S16384x2048_S16384x64x32 Facts₀.bcast_S1x64x1_S16384x64x32_0_1_2
          Facts₀.bcast_S16384x64x32_S16384x64x32x1_0_1_2 Facts₀.concatenates_S16384x64x32x1_S16384x64x32x1_S16384x64x32x2_d3
          Facts₀.shapeCasts_S16384x64x32x2_S16384x4096 := by
  simp only [Gen.hostOps1, Gen.hostOps1_1, Gen.hostOps1_2, Gen.hostOps1_3, List.flatten_cons, List.flatten_nil, List.append_nil,
    List.cons_append, List.nil_append]
  after_results
  rfl

variable (m : (ℓ : Loc nD τ sig) → Buf (Elt Ideal) ℓ)

/-- Site `n` of row `b` of the program's result: the first result array's entry for the site's pair when the site is
    black, the second's when it is white. -/
theorem tail_apply (c : Dev nD) (b : Fin 16384) (n : Fin 4096) :
    (Pipeline.afterTail₀ cfgs (dats m) 0 (V0 m) [hostOps1, hostOps1_1, hostOps1_2, hostOps1_3] c main_v28 : S16384x4096.Idx → EReal) (ix2 b n)
      = if isBlack n then ((dats m 0 c).arrAt 14 cfg0.N : S16384x2048.Idx → EReal) (ix2 b (pairOf n))
        else ((dats m 0 c).arrAt 15 cfg0.N : S16384x2048.Idx → EReal) (ix2 b (pairOf n)) := by
  -- the two result buffers are arrays of the region, the mask buffer is none of them
  have e14 : Pipeline.withArrays (cfgs 0).spec c (V0 m c) (fun w => (dats m 0 c).arrAt w (cfgs 0).N) (Proc.devRef .tc main_v20_0)
      = (dats m 0 c).arrAt 14 cfg0.N :=
    Pipeline.withArrays_arr spec0 launch0.win.arr_inj c (V0 m c) (fun w => (dats m 0 c).arrAt w cfg0.N) 14
  have e15 : Pipeline.withArrays (cfgs 0).spec c (V0 m c) (fun w => (dats m 0 c).arrAt w (cfgs 0).N) (Proc.devRef .tc main_v20_1)
      = (dats m 0 c).arrAt 15 cfg0.N :=
    Pipeline.withArrays_arr spec0 launch0.win.arr_inj c (V0 m c) (fun w => (dats m 0 c).arrAt w cfg0.N) 15
  have e9 : Pipeline.withArrays (cfgs 0).spec c (V0 m c) (fun w => (dats m 0 c).arrAt w (cfgs 0).N) (Proc.devRef .tc main_v9)
      = V m c main_v9 :=
    Pipeline.withArrays_of_ne spec0 c (V0 m c) (fun w => (dats m 0 c).arrAt w cfg0.N) main_v9 (by decide)
  unfold Pipeline.afterTail₀
  refine (congrFun ((tail_term _).trans (interleaved_congr e14 e15 e9 _ _ _ _ _)) (ix2 b n)).trans ?_
  exact interleaved_apply _ _ _ (CouplingEntry.mask_apply m c) _ _ _ _ _ b n

end Cert.KernelIdeal.CouplingTail

end
-- ==== Proof.KernelValue.lean ====
/-
  The idealized kernel's run: its result is the coupling layer applied to the field.
-/
import proofs.«152704_j6270652252843_1_alg».proof.Proof.KernelRegion
import proofs.«152704_j6270652252843_1_alg».proof.Proof.KernelTail

noncomputable section

namespace Cert.KernelIdeal.CouplingValue

open Cert.KernelIdeal Cert.KernelIdeal.Gen Cert.Coupling Idealize.ShloMosaic Idealize.ShloMosaic.ValueIdx Idealize.ShloMosaic.TcCoe Idealize.SL.Sem Idealize.ShloMosaic.Pipeline Cert.KernelIdeal.CouplingRegion Cert.KernelIdeal.CouplingTail

variable (m : (ℓ : Loc nD τ sig) → Buf (Elt Ideal) ℓ)

/-- What the host lines after the region leave in the result buffer is the layer: a black site reads the first result
    array, which holds the black values unchanged; a white site reads the second, which holds the coupled values. -/
theorem result_eq (c : Dev nD) :
    (Pipeline.afterTail₀ cfgs (dats m) 0 (V0 m) [hostOps1, hostOps1_1, hostOps1_2, hostOps1_3] c main_v28 : S16384x4096.Idx → EReal)
      = layer (netS m c) (netT m c) (m ((c : Thread nD τ).loc main_arg0)) := by
  funext i
  obtain ⟨b, n, rfl⟩ : ∃ (b : Fin 16384) (n : Fin 4096), i = ix2 b n := ⟨i 0, i 1, eq_ix2 i⟩
  rw [layer_apply]
  refine (tail_apply m c b n).trans ?_
  unfold rowOut
  by_cases hb : isBlack n
  · rw [if_pos hb, if_pos hb]; exact arr14_apply m c b (pairOf n)
  · rw [if_neg hb, if_neg hb]; exact arr15_apply m c b (pairOf n)

variable (ρ : Dev nD → PrngReg)

/-- Every weakly fair execution ends with the result array at the layer's value and the arguments unchanged. -/
theorem run : θ_run defs (onTc (τ := τ) (main (F := Ideal))) ⟨m, fun _ => 0, ρ⟩ (fun r => ∀ c : Dev nD,
      r.2.mem ((c.tc : Thread nD τ).loc main_v28) = layer (netS m c) (netT m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v28 (Pipeline.mem_restRefs_of main_v28 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 3).trans ((((dats m) 0 c).arrAt_in 3 rfl _).trans ((A_eq m c 3).trans (V_main_arg2 m c))),
      (((h c).2 main_arg3 (Pipeline.mem_restRefs_of main_arg3 (by decide) (by decide))).trans (W_main_arg3 m (dats m) c)),
      ((h c).1 5).trans ((((dats m) 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans ((((dats m) 0 c).arrAt_in 7 rfl _).trans ((A_eq m c 7).trans (V_main_arg6 m c))),
      (((h c).2 main_arg7 (Pipeline.mem_restRefs_of main_arg7 (by decide) (by decide))).trans (W_main_arg7 m (dats m) c)),
      ((h c).1 9).trans ((((dats m) 0 c).arrAt_in 9 rfl _).trans ((A_eq m c 9).trans (V_main_arg8 m c))),
      (((h c).2 main_arg9 (Pipeline.mem_restRefs_of main_arg9 (by decide) (by decide))).trans (W_main_arg9 m (dats m) c)),
      ((h c).1 11).trans ((((dats m) 0 c).arrAt_in 11 rfl _).trans ((A_eq m c 11).trans (V_main_arg10 m c))),
      (((h c).2 main_arg11 (Pipeline.mem_restRefs_of main_arg11 (by decide) (by decide))).trans (W_main_arg11 m (dats m) c)),
      ((h c).1 13).trans ((((dats m) 0 c).arrAt_in 13 rfl _).trans ((A_eq m c 13).trans (V_main_arg12 m c)))⟩) (run_main m ρ)

end Cert.KernelIdeal.CouplingValue

end
-- ==== Proof.RefTerm.lean ====
/-
  The reference program's result as one term of its thirteen arguments: the operations of its @main composed, with the
  two perceptrons and their layers named.
-/
import proofs.«152704_j6270652252843_1_alg».proof.Proof.Gen.ReferenceIdeal

noncomputable section

namespace Cert.ReferenceIdeal.CouplingTerm

open Cert.ReferenceIdeal Cert.ReferenceIdeal.Gen Idealize.ShloMosaic Idealize.ShloMosaic.TcCoe Idealize.SL.Sem

variable {F : FTy → Type} [FloatOps F]

/-- The start indices of the black columns, as the program builds them from its first table: a column of 2048 words
    (the wrap-around of negative positions is there, selected by a mask that is nowhere set). -/
def blackIdx : IVec S2048x1 32 :=
  broadcastInDim S2048x1 ![0] bcast_S2048_S2048x1_0
    (select (constantI S2048 1 0#1)
      (addi (fun i => lit0 (S2048.rowMajor i)) (broadcastInDim S2048 ![] bcast_S_S2048 (constantI S_ 32 4096#32)))
      (fun i => lit0 (S2048.rowMajor i)))

/-- The start indices of the white columns, from the second table. -/
def whiteIdx : IVec S2048x1 32 :=
  broadcastInDim S2048x1 ![0] bcast_S2048_S2048x1_0
    (select (constantI S2048 1 0#1)
      (addi (fun i => lit1 (S2048.rowMajor i)) (broadcastInDim S2048 ![] bcast_S_S2048 (constantI S_ 32 4096#32)))
      (fun i => lit1 (S2048.rowMajor i)))

/-- The rectifier on a 16384 × 64 array. -/
def rect (h : FVec F S16384x64 .f32) : FVec F S16384x64 .f32 :=
  maximumf h (broadcastInDim S16384x64 ![] bcast_S_S16384x64 (constant S_ .f32 0x00000000#32))

/-- The first affine layer: 2048 → 64. -/
def dense1 (x : FVec F S16384x2048 .f32) (w : FVec F S2048x64 .f32) (b : FVec F S64 .f32) : FVec F S16384x64 .f32 :=
  addf (Host.dotGeneral dot_S16384x2048_S2048x64_S16384x64_1_0_0_1_n_n none x w)
    (broadcastInDim S16384x64 ![0, 1] bcast_S1x64_S16384x64_0_1 (broadcastInDim S1x64 ![1] bcast_S64_S1x64_1 b))

/-- The second: 64 → 64. -/
def dense2 (h : FVec F S16384x64 .f32) (w : FVec F S64x64 .f32) (b : FVec F S64 .f32) : FVec F S16384x64 .f32 :=
  addf (Host.dotGeneral dot_S16384x64_S64x64_S16384x64_1_0_0_1_n_n none h w)
    (broadcastInDim S16384x64 ![0, 1] bcast_S1x64_S16384x64_0_1 (broadcastInDim S1x64 ![1] bcast_S64_S1x64_1 b))

/-- The third: 64 → 2048. -/
def dense3 (h : FVec F S16384x64 .f32) (w : FVec F S64x2048 .f32) (b : FVec F S2048 .f32) : FVec F S16384x2048 .f32 :=
  addf (Host.dotGeneral dot_S16384x64_S64x2048_S16384x2048_1_0_0_1_n_n none h w)
    (broadcastInDim S16384x2048 ![0, 1] bcast_S1x2048_S16384x2048_0_1 (broadcastInDim S1x2048 ![1] bcast_S2048_S1x2048_1 b))

/-- One perceptron on every row. -/
def mlp (x : FVec F S16384x2048 .f32) (w1 : FVec F S2048x64 .f32) (b1 : FVec F S64 .f32) (w2 : FVec F S64x64 .f32) (b2 : FVec F S64 .f32) (w3 : FVec F S64x2048 .f32) (b3 : FVec F S2048 .f32) : FVec F S16384x2048 .f32 :=
  dense3 (rect (dense2 (rect (dense1 x w1 b1)) w2 b2)) w3 b3

/-- The black columns of the field. -/
def evens (phi : FVec F S16384x4096 .f32) : FVec F S16384x2048 .f32 :=
  Host.gather gather_S16384x4096_S2048x1_S16384x2048_0_1_n_n_1_1_163841 phi blackIdx

/-- The white columns. -/
def odds (phi : FVec F S16384x4096 .f32) : FVec F S16384x2048 .f32 :=
  Host.gather gather_S16384x4096_S2048x1_S16384x2048_0_1_n_n_1_1_163841 phi whiteIdx

/-- The white columns after the layer. -/
def coupledOdds (phi : FVec F S16384x4096 .f32) (w1 : FVec F S2048x64 .f32) (b1 : FVec F S64 .f32) (w2 : FVec F S64x64 .f32) (b2 : FVec F S64 .f32) (w3 : FVec F S64x2048 .f32) (b3 : FVec F S2048 .f32) (v1 : FVec F S2048x64 .f32) (c1 : FVec F S64 .f32) (v2 : FVec F S64x64 .f32) (c2 : FVec F S64 .f32) (v3 : FVec F S64x2048 .f32) (c3 : FVec F S2048 .f32) : FVec F S16384x2048 .f32 :=
  mulf (subf (odds phi) (mlp (evens phi) v1 c1 v2 c2 v3 c3)) (Host.exp (Host.negf (mlp (evens phi) w1 b1 w2 b2 w3 b3)))

/-- The program's result: zeros, then the black columns written back, then the coupled white columns. -/
def out (phi : FVec F S16384x4096 .f32) (w1 : FVec F S2048x64 .f32) (b1 : FVec F S64 .f32) (w2 : FVec F S64x64 .f32) (b2 : FVec F S64 .f32) (w3 : FVec F S64x2048 .f32) (b3 : FVec F S2048 .f32) (v1 : FVec F S2048x64 .f32) (c1 : FVec F S64 .f32) (v2 : FVec F S64x64 .f32) (c2 : FVec F S64 .f32) (v3 : FVec F S64x2048 .f32) (c3 : FVec F S2048 .f32) : FVec F S16384x4096 .f32 :=
  Host.scatter scatter_S16384x4096_S2048x1_S16384x2048_0_1_1_1 (fun _ b => b)
    (Host.scatter scatter_S16384x4096_S2048x1_S16384x2048_0_1_1_1 (fun _ b => b)
      (broadcastInDim S16384x4096 ![] bcast_S_S16384x4096 (constant S_ .f32 0x00000000#32)) blackIdx (evens phi))
    whiteIdx (coupledOdds phi w1 b1 w2 b2 w3 b3 v1 c1 v2 c2 v3 c3)

end Cert.ReferenceIdeal.CouplingTerm

end
-- ==== Proof.RefRun.lean ====
/-
  The reference program's run: its @main is a straight line of host operations, and every execution ends with the
  result buffer at the composed term of the arguments.
-/
import proofs.«152704_j6270652252843_1_alg».proof.Proof.RefTerm
import Idealize.ShloMosaic.Lib.StableHlo.Run

noncomputable section

namespace Cert.ReferenceIdeal.CouplingRun

open Cert.ReferenceIdeal Cert.ReferenceIdeal.Gen Idealize.ShloMosaic Idealize.ShloMosaic.TcCoe Idealize.SL.Sem Idealize.ShloMosaic.StableHlo Cert.ReferenceIdeal.CouplingTerm

variable {F : FTy → Type} [FloatOps F]

/-- The straight line: the seventy-two operations of @main in order, each rectifier call replaced by the three
    operations of its body over that call's own buffers (the zero, its spread over the array, the maximum). -/
abbrev ops : List (HloOp τ sig (Elt F)) :=
  [
    nullary main_c (fun i => lit0 (S2048.rowMajor i)),
    nullary main_c_0 (constantI S2048 1 0#1),
    nullary main_c_1 (fun i => lit1 (S2048.rowMajor i)),
    nullary main_c_2 (constantI S2048 1 0#1),
    nullary main_c_3 (constantI S2048 1 0#1),
    nullary main_c_4 (constantI S2048 1 0#1),
    nullary main_c_5 (constantI S_ 32 4096#32),
    unary main_c_5 main_v0 (broadcastInDim S2048 ![] bcast_S_S2048 : (⟨S_, .i32⟩ : BufTy).Contents (Elt F) → (⟨S2048, .i32⟩ : BufTy).Contents (Elt F)),
    binary main_c main_v0 main_v1 (addi : (⟨S2048, .i32⟩ : BufTy).Contents (Elt F) → (⟨S2048, .i32⟩ : BufTy).Contents (Elt F) → (⟨S2048, .i32⟩ : BufTy).Contents (Elt F)),
    ternary main_c_0 main_v1 main_c main_v2 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v2 main_v3 (broadcastInDim S2048x1 ![0] bcast_S2048_S2048x1_0 : (⟨S2048, .i32⟩ : BufTy).Contents (Elt F) → (⟨S2048x1, .i32⟩ : BufTy).Contents (Elt F)),
    binary main_arg0 main_v3 main_v4 ((fun x i => Host.gather gather_S16384x4096_S2048x1_S16384x2048_0_1_n_n_1_1_163841 x i) : (⟨S16384x4096, .f32⟩ : BufTy).Contents (Elt F) → (⟨S2048x1, .i32⟩ : BufTy).Contents (Elt F) → (⟨S16384x2048, .f32⟩ : BufTy).Contents (Elt F)),
    nullary main_c_6 (constantI S_ 32 4096#32),
    unary main_c_6 main_v5 (broadcastInDim S2048 ![] bcast_S_S2048 : (⟨S_, .i32⟩ : BufTy).Contents (Elt F) → (⟨S2048, .i32⟩ : BufTy).Contents (Elt F)),
    binary main_c_1 main_v5 main_v6 (addi : (⟨S2048, .i32⟩ : BufTy).Contents (Elt F) → (⟨S2048, .i32⟩ : BufTy).Contents (Elt F) → (⟨S2048, .i32⟩ : BufTy).Contents (Elt F)),
    ternary main_c_2 main_v6 main_c_1 main_v7 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v7 main_v8 (broadcastInDim S2048x1 ![0] bcast_S2048_S2048x1_0 : (⟨S2048, .i32⟩ : BufTy).Contents (Elt F) → (⟨S2048x1, .i32⟩ : BufTy).Contents (Elt F)),
    binary main_arg0 main_v8 main_v9 ((fun x i => Host.gather gather_S16384x4096_S2048x1_S16384x2048_0_1_n_n_1_1_163841 x i) : (⟨S16384x4096, .f32⟩ : BufTy).Contents (Elt F) → (⟨S2048x1, .i32⟩ : BufTy).Contents (Elt F) → (⟨S16384x2048, .f32⟩ : BufTy).Contents (Elt F)),
    binary main_v4 main_arg1 main_v10 ((fun l r => Host.dotGeneral dot_S16384x2048_S2048x64_S16384x64_1_0_0_1_n_n none l r) : (⟨S16384x2048, .f32⟩ : BufTy).Contents (Elt F) → (⟨S2048x64, .f32⟩ : BufTy).Contents (Elt F) → (⟨S16384x64, .f32⟩ : BufTy).Contents (Elt F)),
    unary main_arg2 main_v11 (broadcastInDim S1x64 ![1] bcast_S64_S1x64_1 : (⟨S64, .f32⟩ : BufTy).Contents (Elt F) → (⟨S1x64, .f32⟩ : BufTy).Contents (Elt F)),
    unary main_v11 main_v12 (broadcastInDim S16384x64 ![0, 1] bcast_S1x64_S16384x64_0_1 : (⟨S1x64, .f32⟩ : BufTy).Contents (Elt F) → (⟨S16384x64, .f32⟩ : BufTy).Contents (Elt F)),
    binary main_v10 main_v12 main_v13 (addf : (⟨S16384x64, .f32⟩ : BufTy).Contents (Elt F) → (⟨S16384x64, .f32⟩ : BufTy).Contents (Elt F) → (⟨S16384x64, .f32⟩ : BufTy).Contents (Elt F)),
    TRef.nullary main_call0.cst (constant S_ .f32 0x00000000#32),
    TRef.unary main_call0.cst main_call0.v0 (broadcastInDim S16384x64 ![] bcast_S_S16384x64),
    TRef.binary (.of main_v13) main_call0.v0 main_call0.v1 maximumf,
    binary main_v14 main_arg3 main_v15 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S16384x64 ![0, 1] bcast_S1x64_S16384x64_0_1 : (⟨S1x64, .f32⟩ : BufTy).Contents (Elt F) → (⟨S16384x64, .f32⟩ : BufTy).Contents (Elt F)),
    binary main_v15 main_v17 main_v18 (addf : (⟨S16384x64, .f32⟩ : BufTy).Contents (Elt F) → (⟨S16384x64, .f32⟩ : BufTy).Contents (Elt F) → (⟨S16384x64, .f32⟩ : BufTy).Contents (Elt F)),
    TRef.nullary main_call1.cst (constant S_ .f32 0x00000000#32),
    TRef.unary main_call1.cst main_call1.v0 (broadcastInDim S16384x64 ![] bcast_S_S16384x64),
    TRef.binary (.of main_v18) main_call1.v0 main_call1.v1 maximumf,
    binary main_v19 main_arg5 main_v20 ((fun l r => Host.dotGeneral dot_S16384x64_S64x2048_S16384x2048_1_0_0_1_n_n none l r) : (⟨S16384x64, .f32⟩ : BufTy).Contents (Elt F) → (⟨S64x2048, .f32⟩ : BufTy).Contents (Elt F) → (⟨S16384x2048, .f32⟩ : BufTy).Contents (Elt F)),
    unary main_arg6 main_v21 (broadcastInDim S1x2048 ![1] bcast_S2048_S1x2048_1 : (⟨S2048, .f32⟩ : BufTy).Contents (Elt F) → (⟨S1x2048, .f32⟩ : BufTy).Contents (Elt F)),
    unary main_v21 main_v22 (broadcastInDim S16384x2048 ![0, 1] bcast_S1x2048_S16384x2048_0_1 : (⟨S1x2048, .f32⟩ : BufTy).Contents (Elt F) → (⟨S16384x2048, .f32⟩ : BufTy).Contents (Elt F)),
    binary main_v20 main_v22 main_v23 (addf : (⟨S16384x2048, .f32⟩ : BufTy).Contents (Elt F) → (⟨S16384x2048, .f32⟩ : BufTy).Contents (Elt F) → (⟨S16384x2048, .f32⟩ : BufTy).Contents (Elt F)),
    binary main_v4 main_arg7 main_v24 ((fun l r => Host.dotGeneral dot_S16384x2048_S2048x64_S16384x64_1_0_0_1_n_n none l r) : (⟨S16384x2048, .f32⟩ : BufTy).Contents (Elt F) → (⟨S2048x64, .f32⟩ : BufTy).Contents (Elt F) → (⟨S16384x64, .f32⟩ : BufTy).Contents (Elt F)),
    unary main_arg8 main_v25 (broadcastInDim S1x64 ![1] bcast_S64_S1x64_1 : (⟨S64, .f32⟩ : BufTy).Contents (Elt F) → (⟨S1x64, .f32⟩ : BufTy).Contents (Elt F)),
    unary main_v25 main_v26 (broadcastInDim S16384x64 ![0, 1] bcast_S1x64_S16384x64_0_1 : (⟨S1x64, .f32⟩ : BufTy).Contents (Elt F) → (⟨S16384x64, .f32⟩ : BufTy).Contents (Elt F)),
    binary main_v24 main_v26 main_v27 (addf : (⟨S16384x64, .f32⟩ : BufTy).Contents (Elt F) → (⟨S16384x64, .f32⟩ : BufTy).Contents (Elt F) → (⟨S16384x64, .f32⟩ : BufTy).Contents (Elt F)),
    TRef.nullary main_call2.cst (constant S_ .f32 0x00000000#32),
    TRef.unary main_call2.cst main_call2.v0 (broadcastInDim S16384x64 ![] bcast_S_S16384x64),
    TRef.binary (.of main_v27) main_call2.v0 main_call2.v1 maximumf,
    binary main_v28 main_arg9 main_v29 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg10 main_v30 (broadcastInDim S1x64 ![1] bcast_S64_S1x64_1 : (⟨S64, .f32⟩ : BufTy).Contents (Elt F) → (⟨S1x64, .f32⟩ : BufTy).Contents (Elt F)),
    unary main_v30 main_v31 (broadcastInDim S16384x64 ![0, 1] bcast_S1x64_S16384x64_0_1 : (⟨S1x64, .f32⟩ : BufTy).Contents (Elt F) → (⟨S16384x64, .f32⟩ : BufTy).Contents (Elt F)),
    binary main_v29 main_v31 main_v32 (addf : (⟨S16384x64, .f32⟩ : BufTy).Contents (Elt F) → (⟨S16384x64, .f32⟩ : BufTy).Contents (Elt F) → (⟨S16384x64, .f32⟩ : BufTy).Contents (Elt F)),
    TRef.nullary main_call3.cst (constant S_ .f32 0x00000000#32),
    TRef.unary main_call3.cst main_call3.v0 (broadcastInDim S16384x64 ![] bcast_S_S16384x64),
    TRef.binary (.of main_v32) main_call3.v0 main_call3.v1 maximumf,
    binary main_v33 main_arg11 main_v34 ((fun l r => Host.dotGeneral dot_S16384x64_S64x2048_S16384x2048_1_0_0_1_n_n none l r) : (⟨S16384x64, .f32⟩ : BufTy).Contents (Elt F) → (⟨S64x2048, .f32⟩ : BufTy).Contents (Elt F) → (⟨S16384x2048, .f32⟩ : BufTy).Contents (Elt F)),
    unary main_arg12 main_v35 (broadcastInDim S1x2048 ![1] bcast_S2048_S1x2048_1 : (⟨S2048, .f32⟩ : BufTy).Contents (Elt F) → (⟨S1x2048, .f32⟩ : BufTy).Contents (Elt F)),
    unary main_v35 main_v36 (broadcastInDim S16384x2048 ![0, 1] bcast_S1x2048_S16384x2048_0_1 : (⟨S1x2048, .f32⟩ : BufTy).Contents (Elt F) → (⟨S16384x2048, .f32⟩ : BufTy).Contents (Elt F)),
    binary main_v34 main_v36 main_v37 (addf : (⟨S16384x2048, .f32⟩ : BufTy).Contents (Elt F) → (⟨S16384x2048, .f32⟩ : BufTy).Contents (Elt F) → (⟨S16384x2048, .f32⟩ : BufTy).Contents (Elt F)),
    binary main_v9 main_v37 main_v38 (subf : (⟨S16384x2048, .f32⟩ : BufTy).Contents (Elt F) → (⟨S16384x2048, .f32⟩ : BufTy).Contents (Elt F) → (⟨S16384x2048, .f32⟩ : BufTy).Contents (Elt F)),
    unary main_v23 main_v39 (Host.negf : (⟨S16384x2048, .f32⟩ : BufTy).Contents (Elt F) → (⟨S16384x2048, .f32⟩ : BufTy).Contents (Elt F)),
    unary main_v39 main_v40 (Host.exp : (⟨S16384x2048, .f32⟩ : BufTy).Contents (Elt F) → (⟨S16384x2048, .f32⟩ : BufTy).Contents (Elt F)),
    binary main_v38 main_v40 main_v41 (mulf : (⟨S16384x2048, .f32⟩ : BufTy).Contents (Elt F) → (⟨S16384x2048, .f32⟩ : BufTy).Contents (Elt F) → (⟨S16384x2048, .f32⟩ : BufTy).Contents (Elt F)),
    nullary main_cst (constant S_ .f32 0x00000000#32),
    unary main_cst main_v42 (broadcastInDim S16384x4096 ![] bcast_S_S16384x4096 : (⟨S_, .f32⟩ : BufTy).Contents (Elt F) → (⟨S16384x4096, .f32⟩ : BufTy).Contents (Elt F)),
    nullary main_c_7 (constantI S_ 32 4096#32),
    unary main_c_7 main_v43 (broadcastInDim S2048 ![] bcast_S_S2048 : (⟨S_, .i32⟩ : BufTy).Contents (Elt F) → (⟨S2048, .i32⟩ : BufTy).Contents (Elt F)),
    binary main_c main_v43 main_v44 (addi : (⟨S2048, .i32⟩ : BufTy).Contents (Elt F) → (⟨S2048, .i32⟩ : BufTy).Contents (Elt F) → (⟨S2048, .i32⟩ : BufTy).Contents (Elt F)),
    ternary main_c_3 main_v44 main_c main_v45 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v45 main_v46 (broadcastInDim S2048x1 ![0] bcast_S2048_S2048x1_0 : (⟨S2048, .i32⟩ : BufTy).Contents (Elt F) → (⟨S2048x1, .i32⟩ : BufTy).Contents (Elt F)),
    ternary main_v42 main_v46 main_v4 main_v47 ((fun x i u => Host.scatter scatter_S16384x4096_S2048x1_S16384x2048_0_1_1_1 (fun _ b => b) x i u) : (⟨S16384x4096, .f32⟩ : BufTy).Contents (Elt F) → (⟨S2048x1, .i32⟩ : BufTy).Contents (Elt F) → (⟨S16384x2048, .f32⟩ : BufTy).Contents (Elt F) → (⟨S16384x4096, .f32⟩ : BufTy).Contents (Elt F)),
    nullary main_c_8 (constantI S_ 32 4096#32),
    unary main_c_8 main_v48 (broadcastInDim S2048 ![] bcast_S_S2048 : (⟨S_, .i32⟩ : BufTy).Contents (Elt F) → (⟨S2048, .i32⟩ : BufTy).Contents (Elt F)),
    binary main_c_1 main_v48 main_v49 (addi : (⟨S2048, .i32⟩ : BufTy).Contents (Elt F) → (⟨S2048, .i32⟩ : BufTy).Contents (Elt F) → (⟨S2048, .i32⟩ : BufTy).Contents (Elt F)),
    ternary main_c_4 main_v49 main_c_1 main_v50 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v50 main_v51 (broadcastInDim S2048x1 ![0] bcast_S2048_S2048x1_0 : (⟨S2048, .i32⟩ : BufTy).Contents (Elt F) → (⟨S2048x1, .i32⟩ : BufTy).Contents (Elt F)),
    ternary main_v47 main_v51 main_v41 main_v52 ((fun x i u => Host.scatter scatter_S16384x4096_S2048x1_S16384x2048_0_1_1_1 (fun _ b => b) x i u) : (⟨S16384x4096, .f32⟩ : BufTy).Contents (Elt F) → (⟨S2048x1, .i32⟩ : BufTy).Contents (Elt F) → (⟨S16384x2048, .f32⟩ : BufTy).Contents (Elt F) → (⟨S16384x4096, .f32⟩ : BufTy).Contents (Elt F)) ]

set_option maxRecDepth 4096 in
set_option maxHeartbeats 4000000 in
/-- @main is that line: its two halves and the rectifier's body unfolded, sequencing reassociated, both sides are one
    chain of steps. -/
theorem main_eq (c : Dev nD) : main (F := F) c = seq ops := by
  simp only [main, main_part0, main_part1, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨
    nullary_bufs_sub .., nullary_bufs_sub .., nullary_bufs_sub .., nullary_bufs_sub .., nullary_bufs_sub .., nullary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., nullary_bufs_sub .., unary_bufs_sub ..,
    nullary_bufs_sub .., unary_bufs_sub .., binary_bufs_sub .., ternary_bufs_sub .., unary_bufs_sub .., ternary_bufs_sub ..,
    nullary_bufs_sub .., unary_bufs_sub .., binary_bufs_sub .., ternary_bufs_sub .., unary_bufs_sub .., ternary_bufs_sub ..⟩

attribute [local irreducible] Host.gather Host.scatter in
set_option maxRecDepth 8192 in
set_option maxHeartbeats 4000000 in
/-- What the line leaves in the result buffer is `out` of the arguments' contents: each operation's result read at
    its own buffer and every other buffer left as it was, the composed term is `out` spelled out. -/
theorem out_eq (V : Valuation τ sig (Elt F)) :
    after ops V (main_v52 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  simp only [out, coupledOdds, evens, odds, mlp, dense1, dense2, dense3, rect, blackIdx, whiteIdx]
  rfl

/-! No operation of the line writes an argument's buffer (each writes its own result buffer, and those are seventy-two
    other buffers), so each argument is after the line what it was before. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

set_option maxRecDepth 8192 in
set_option maxHeartbeats 4000000 in
theorem arg9_eq (V : Valuation τ sig (Elt F)) :
    after ops V (main_arg9 : DevRef τ sig) = V (main_arg9 : DevRef τ sig) := by
  after_results_simp

set_option maxRecDepth 8192 in
set_option maxHeartbeats 4000000 in
theorem arg10_eq (V : Valuation τ sig (Elt F)) :
    after ops V (main_arg10 : DevRef τ sig) = V (main_arg10 : DevRef τ sig) := by
  after_results_simp

set_option maxRecDepth 8192 in
set_option maxHeartbeats 4000000 in
theorem arg11_eq (V : Valuation τ sig (Elt F)) :
    after ops V (main_arg11 : DevRef τ sig) = V (main_arg11 : DevRef τ sig) := by
  after_results_simp

set_option maxRecDepth 8192 in
set_option maxHeartbeats 4000000 in
theorem arg12_eq (V : Valuation τ sig (Elt F)) :
    after ops V (main_arg12 : DevRef τ sig) = V (main_arg12 : DevRef τ sig) := by
  after_results_simp
/-- Every weakly fair execution of the reference ends with the result at `out` of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v52).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ)

end Cert.ReferenceIdeal.CouplingRun

end
-- ==== Proof.LibBroadcastRead.lean ====
/-
  The host's two-step broadcasts of a vector into a rectangle, read at one entry.

  `jnp` lays a vector along a rectangle in two steps: first it gives the vector a unit axis (a row `[1, m]` or a column
  `[n, 1]`), then it repeats that along the unit axis. Read at entry `(p, q)`, a row repeated down the rows holds the
  row's entry `q`, and a column repeated along the columns holds the column's entry `p`; the unit-axis step changes
  nothing but the index's shape. Stated for every size, so a program's printed broadcast is an instance.
-/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

/-- A vector as a one-row matrix: entry `(0, q)` is the vector's entry `q`. -/
theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

/-- A vector as a one-column matrix: entry `(p, 0)` is the vector's entry `p`. -/
theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

/-- A one-row matrix repeated down `n` rows: entry `(p, q)` is the row's entry `q`. -/
theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

/-- A one-column matrix repeated along `m` columns: entry `(p, q)` is the column's entry `p`. -/
theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.RefTables.lean ====
/-
  The reference's two index tables: the black sites and the white sites of a row, in increasing order.

  Each table is a literal list of 2048 words. Entry `k` of the first is `64·(k / 32) + 2·(k mod 32) + (k / 32) mod 2`,
  the `k`-th black site of the board, and entry `k` of the second is the other site of the same pair; both are finite
  statements about literal tables and hold by evaluating every entry. The program then wraps each table in a select
  whose mask is nowhere set, which leaves the table itself, and lays it out as a column of start indices, whose entry
  `(k, 0)` is the table's entry `k`.
-/
import proofs.«152704_j6270652252843_1_alg».proof.Proof.RefTerm
import proofs.«152704_j6270652252843_1_alg».proof.Proof.Coupling
import proofs.«152704_j6270652252843_1_alg».proof.Proof.LibBroadcastRead
import Idealize.ShloMosaic.Lib.ValueLayout

noncomputable section

namespace Cert.ReferenceIdeal.CouplingTables

open Cert.ReferenceIdeal Cert.ReferenceIdeal.Gen Idealize.ShloMosaic Idealize.ShloMosaic.TcCoe Idealize.SL.Sem Cert.Coupling Cert.ReferenceIdeal.CouplingTerm Idealize.ShloMosaic.ValueIdx

/-- Entry `k` of the first table is the `k`-th black site: all 2048 entries, by evaluation. -/
theorem lit0_val : ∀ k : Fin 2048,
    lit0 k = BitVec.ofNat 32 (64 * (k.val / 32) + 2 * (k.val % 32) + (k.val / 32) % 2) := by
  decide +kernel

/-- Entry `k` of the second table is the `k`-th white site: all 2048 entries, by evaluation. -/
theorem lit1_val : ∀ k : Fin 2048,
    lit1 k = BitVec.ofNat 32 (64 * (k.val / 32) + 2 * (k.val % 32) + (1 - (k.val / 32) % 2)) := by
  decide +kernel

/-- The row-major position of a one-coordinate index is its coordinate. -/
theorem rowMajor_ix1 (k : Fin 2048) : S2048.rowMajor (ix1 k) = k :=
  Fin.ext (Shape.rowMajor_val_one (ix1 k))

/-- Position `k` of the first column of start indices is the `k`-th black site. -/
theorem blackIdx_apply (k : Fin 2048) : blackIdx (ix2 k 0) = BitVec.ofNat 32 (blackSite k).val := by
  unfold blackIdx
  refine (Cert.LibBroadcastRead.vec_as_col_apply _ _ k 0).trans ?_
  rw [select_apply, constantI_apply, select_zero, rowMajor_ix1]
  exact lit0_val k

/-- Position `k` of the second is the `k`-th white site. -/
theorem whiteIdx_apply (k : Fin 2048) : whiteIdx (ix2 k 0) = BitVec.ofNat 32 (whiteSite k).val := by
  unfold whiteIdx
  refine (Cert.LibBroadcastRead.vec_as_col_apply _ _ k 0).trans ?_
  rw [select_apply, constantI_apply, select_zero, rowMajor_ix1]
  exact lit1_val k

end Cert.ReferenceIdeal.CouplingTables

end
-- ==== Proof.RefMlp.lean ====
/-
  The reference's perceptron on one row, read entry by entry on the extended reals.

  Each affine layer of the reference is a plain matrix product plus a bias vector laid along the rows; at entry
  `(p, j)` the product is the sum `∑ k, h (p, k) · w (k, j)` and the bias term is `β j`, so the entry is the affine
  map of row `p` at `j`. The rectifier is an entrywise maximum with a constant array whose word is `+0`, hence
  `max (h (p, j)) 0`. Both facts speak of one row only, so row `p` of a layer's result is the layer of row `p`; the
  three layers and two rectifiers then compose row by row into the perceptron of the specification.
-/
import proofs.«152704_j6270652252843_1_alg».proof.Proof.RefTerm
import proofs.«152704_j6270652252843_1_alg».proof.Proof.Coupling
import proofs.«152704_j6270652252843_1_alg».proof.Proof.LibPlainProduct
import proofs.«152704_j6270652252843_1_alg».proof.Proof.LibBroadcastRead

noncomputable section

namespace Cert.ReferenceIdeal.CouplingMlp

open Cert.ReferenceIdeal Cert.ReferenceIdeal.Gen Idealize.ShloMosaic Idealize.ShloMosaic.TcCoe Idealize.SL.Sem Cert.Coupling Idealize.ShloMosaic.ValueIdx

/-- An affine layer for every size: a plain `M × K` by `K × N` product plus a length-`N` bias laid along the `M` rows.
    Entry `(p, j)` is the affine map of row `p` at `j`. The dimension record is any one equal to the plain one. -/
theorem affine_layer_apply {M K N : ℕ} (d : DotDims ⟨2, ![M, K]⟩ ⟨2, ![K, N]⟩ ⟨2, ![M, N]⟩)
    (hd : d = DotDims.plain M K N)
    (h₁ : (⟨1, ![N]⟩ : Shape).BroadcastsInDim ⟨2, ![1, N]⟩ ![1])
    (h₂ : (⟨2, ![1, N]⟩ : Shape).BroadcastsInDim ⟨2, ![M, N]⟩ ![0, 1])
    (h : FVec Ideal ⟨2, ![M, K]⟩ .f32) (w : FVec Ideal ⟨2, ![K, N]⟩ .f32) (β : FVec Ideal ⟨1, ![N]⟩ .f32)
    (p : Fin M) (j : Fin N) :
    addf (Host.dotGeneral d none h w)
        (broadcastInDim ⟨2, ![M, N]⟩ ![0, 1] h₂ (broadcastInDim ⟨2, ![1, N]⟩ ![1] h₁ β)) (ix2 p j)
      = affine (fun k => h (ix2 p k)) (fun k j => w (ix2 k j)) (fun j => β (ix1 j)) j := by
  subst hd
  rw [addf_apply, Cert.LibBroadcastRead.row_down_apply, Cert.LibBroadcastRead.vec_as_row_apply]
  exact congrArg (· + β (ix1 j)) (Cert.LibPlainProduct.dotGeneral_plain_apply h w none .single p j)

/-- The three printed dimension records are plain products. -/
theorem dot1_plain : dot_S16384x2048_S2048x64_S16384x64_1_0_0_1_n_n = DotDims.plain 16384 2048 64 := rfl
theorem dot2_plain : dot_S16384x64_S64x64_S16384x64_1_0_0_1_n_n = DotDims.plain 16384 64 64 := rfl
theorem dot3_plain : dot_S16384x64_S64x2048_S16384x2048_1_0_0_1_n_n = DotDims.plain 16384 64 2048 := rfl

/-- Row `p` of the first layer's result is the affine map of row `p` of its operand. -/
theorem dense1_row (x : FVec Ideal S16384x2048 .f32) (w : FVec Ideal S2048x64 .f32) (β : FVec Ideal S64 .f32) (p : Fin 16384) :
    (fun j : Fin 64 => CouplingTerm.dense1 (F := Ideal) x w β (ix2 p j))
      = affine (fun k => x (ix2 p k)) (fun k j => w (ix2 k j)) (fun j => β (ix1 j)) :=
  funext fun j => affine_layer_apply _ dot1_plain _ _ x w β p j

/-- The same for the second layer … -/
theorem dense2_row (h : FVec Ideal S16384x64 .f32) (w : FVec Ideal S64x64 .f32) (β : FVec Ideal S64 .f32) (p : Fin 16384) :
    (fun j : Fin 64 => CouplingTerm.dense2 (F := Ideal) h w β (ix2 p j))
      = affine (fun k => h (ix2 p k)) (fun k j => w (ix2 k j)) (fun j => β (ix1 j)) :=
  funext fun j => affine_layer_apply _ dot2_plain _ _ h w β p j

/-- … and for the third. -/
theorem dense3_row (h : FVec Ideal S16384x64 .f32) (w : FVec Ideal S64x2048 .f32) (β : FVec Ideal S2048 .f32) (p : Fin 16384) :
    (fun j : Fin 2048 => CouplingTerm.dense3 (F := Ideal) h w β (ix2 p j))
      = affine (fun k => h (ix2 p k)) (fun k j => w (ix2 k j)) (fun j => β (ix1 j)) :=
  funext fun j => affine_layer_apply _ dot3_plain _ _ h w β p j

/-- The constant the rectifier compares with is zero at every entry: a scalar repeated everywhere, whose word is `+0`. -/
theorem zeros_apply (i : S16384x64.Idx) :
    broadcastInDim S16384x64 ![] bcast_S_S16384x64 (constant (F := Ideal) S_ .f32 0x00000000#32) i = (0 : EReal) := by
  rw [broadcastInDim_apply ![] bcast_S_S16384x64 _ i ix0 fun a => a.elim0, constant_apply]
  exact Ideal.ofBits_zero_f32

/-- Row `p` of the rectified array is the rectifier of row `p`. -/
theorem rect_row (h : FVec Ideal S16384x64 .f32) (p : Fin 16384) :
    (fun j : Fin 64 => CouplingTerm.rect (F := Ideal) h (ix2 p j)) = relu (fun k => h (ix2 p k)) :=
  funext fun j => by
    unfold CouplingTerm.rect relu
    rw [maximumf_apply, zeros_apply]

/-- Entry `(b, q)` of the perceptron applied to every row: the perceptron of row `b`, at `q`. -/
theorem mlp_apply (x : FVec Ideal S16384x2048 .f32) (w1 : FVec Ideal S2048x64 .f32) (b1 : FVec Ideal S64 .f32) (w2 : FVec Ideal S64x64 .f32) (b2 : FVec Ideal S64 .f32) (w3 : FVec Ideal S64x2048 .f32) (b3 : FVec Ideal S2048 .f32) (b : Fin 16384) (q : Fin 2048) :
    Cert.ReferenceIdeal.CouplingTerm.mlp (F := Ideal) x w1 b1 w2 b2 w3 b3 (ix2 b q)
      = Cert.Coupling.mlp (netOf w1 b1 w2 b2 w3 b3) (fun k => x (ix2 b k)) q := by
  -- peel the layers from the outside in, each time replacing a row of a layer's result by the layer of the row
  have e3 := congrFun (dense3_row (CouplingTerm.rect (CouplingTerm.dense2 (CouplingTerm.rect (CouplingTerm.dense1 x w1 b1)) w2 b2)) w3 b3 b) q
  rw [rect_row, dense2_row, rect_row, dense1_row] at e3
  exact e3

end Cert.ReferenceIdeal.CouplingMlp

end
-- ==== Proof.LibColumnTake.lean ====
/-
  A table's columns taken at a list of positions, read at one entry, for every size.

  jnp's `table[:, idx]` over an `R × C` table and `n` positions is a gather whose start indices are the `n × 1` column
  of positions: the result's axis 0 is its one offset axis and runs over the table's axis 0 whole, the table's axis 1 is
  collapsed and is the one axis a start index names, and the index vector lies along axis 1 of the start indices. The
  result is `R × n`, and its entry `(r, e)` is the table's entry at row `r` of the column position `e` names, that
  position read as a signed integer and clamped into `[0, C - 1]`.

  The dimension numbers enter as hypotheses, so a program's printed record with these numbers is an instance, each
  hypothesis by unfolding.
-/
import Idealize.ShloMosaic.PureOps.ShapeOps
import Idealize.ShloMosaic.Lib.ValueIdx

namespace Cert.LibColumnTake

open Idealize.ShloMosaic Idealize.ShloMosaic.ValueIdx

/-- The column of a `C`-column table that a position word names: the word read signed, clamped into `[0, C - 1]`. -/
def colOf {w : ℕ} (C : ℕ) (hC : 0 < C) (p : BitVec w) : Fin C := ⟨min p.toInt.toNat (C - 1), by omega⟩

/-- Entry `(r, e)` of the columns of `x` taken at the positions `idx`: row `r` of the column of `x` that position `e`
    names, read signed and clamped into the table. -/
theorem gather_cols {α : Type} {R C n w : ℕ} (d : GatherDims ⟨2, ![R, C]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, C]⟩ : Shape).Idx → α) (idx : IVec ⟨2, ![n, 1]⟩ w) (r : Fin R) (e : Fin n) (hC : 0 < C) :
    Host.gather d x idx (ix2 r e) = x (ix2 r (colOf C hC (idx (ix2 e 0)))) := by
  -- Which of the table's two axes are kept, and which one a start index names.
  have nobatch : ∀ a : Fin 2, a ∉ d.operandBatchingDims := by
    intro a; rw [hob]; exact List.not_mem_nil
  have kept0 : (0 : Fin 2) ∈ d.sKept := by
    rw [GatherDims.mem_sKept, hcoll]; exact ⟨by simp, nobatch 0⟩
  have kept1 : (1 : Fin 2) ∉ d.sKept := by
    rw [GatherDims.mem_sKept, hcoll]; simp
  have named1 : (1 : Fin 2) ∈ d.startIndexMap := by
    rw [hsim]; exact List.mem_singleton.mpr rfl
  have named0 : (0 : Fin 2) ∉ d.startIndexMap := by
    rw [hsim]; simp
  -- The collapsed axis has a slice of size one, so its start is clamped into [0, C - 1].
  have slice1 : d.sliceSizes 1 = 1 :=
    d.slice_collapsed 1 (by rw [hcoll]; exact List.mem_singleton.mpr rfl)
  -- Every offset axis of the result is axis 0; every batch axis of the result is axis 1.
  have offAxis : ∀ (i : Nat) (hi : i < d.offsetDims.length), d.offsetDims[i] = (0 : Fin 2) := by
    intro i hi
    have hmem : d.offsetDims[i] ∈ d.offsetDims := List.getElem_mem hi
    generalize d.offsetDims[i] = a at hmem
    rw [hoff] at hmem
    exact List.mem_singleton.1 hmem
  have batAxis : ∀ (i : Nat) (hi : i < d.batchDims.length), d.batchDims[i] = (1 : Fin 2) := by
    intro i hi
    have hmem : d.batchDims[i] ∈ d.batchDims := List.getElem_mem hi
    generalize d.batchDims[i] = a at hmem
    simp only [GatherDims.batchDims, Shape.kept, hoff, List.mem_filter, List.mem_singleton] at hmem
    have hne : a ≠ (0 : Fin 2) := by simpa using hmem.2
    have hv : a.val ≠ 0 := fun h => hne (Fin.ext h)
    have hlt : a.val < 2 := a.isLt
    apply Fin.ext
    show a.val = 1
    omega
  -- The result index (r, e) read on an axis known to be 0, resp. 1.
  have at0 : ∀ a : Fin 2, a = 0 → ((ix2 r e : (⟨2, ![R, n]⟩ : Shape).Idx) a).val = r.val := by
    rintro _ rfl; rfl
  have at1 : ∀ a : Fin 2, a = 1 → ((ix2 r e : (⟨2, ![R, n]⟩ : Shape).Idx) a).val = e.val := by
    rintro _ rfl; rfl
  -- The start index that entry (r, e) reads: the batch coordinate e on axis 0 of the positions, component 0 on
  -- the index vector's axis.
  have readAt : ∀ h, d.siIdx (ix2 r e) ⟨List.idxOf (1 : Fin 2) d.startIndexMap, h⟩ = ix2 e 0 := by
    intro h
    funext b
    match b with
    | ⟨0, _⟩ =>
      unfold GatherDims.siIdx
      rw [dif_neg (by rw [hivd]; simp)]
      unfold GatherDims.siCoord
      apply Fin.ext
      simp only [Fin.val_cast]
      exact at1 _ (batAxis _ _)
    | ⟨1, _⟩ =>
      unfold GatherDims.siIdx
      rw [dif_pos (by rw [hivd])]
      apply Fin.ext
      show List.idxOf (1 : Fin 2) d.startIndexMap = 0
      rw [hsim]; simp
  -- Axis 0 of the table: no start, no batching, the offset coordinate is the result's coordinate on axis 0.
  have coord0 : (d.operandIdx (ix2 r e) idx 0).val = r.val := by
    simp only [GatherDims.operandIdx, GatherDims.batchCoord_eq_zero _ _ _ (nobatch _), GatherDims.start,
      dif_neg named0, Nat.add_zero, Nat.zero_add]
    unfold GatherDims.offCoord
    rw [dif_pos kept0]
    exact at0 _ (offAxis _ _)
  -- Axis 1 of the table: collapsed, so no offset; the coordinate is the clamped start index.
  have coord1 : (d.operandIdx (ix2 r e) idx 1).val = min (idx (ix2 e 0)).toInt.toNat (C - 1) := by
    simp only [GatherDims.operandIdx, GatherDims.batchCoord_eq_zero _ _ _ (nobatch _), GatherDims.start,
      dif_pos named1, GatherDims.offCoord_eq_zero _ _ _ kept1, Nat.add_zero]
    rw [readAt, slice1]
    rfl
  unfold Host.gather
  congr 1
  funext a
  apply Fin.ext
  match a with
  | ⟨0, _⟩ => exact coord0
  | ⟨1, _⟩ => exact coord1

end Cert.LibColumnTake
-- ==== Proof.LibColumnSet.lean ====
/-
  A table's columns overwritten at a list of distinct positions, read at one entry, for every size.

  jnp's `table.at[:, idx].set(upd)` over an `R × C` table, `n` positions and an `R × n` update is a scatter whose
  scatter indices are the `n × 1` column of positions: the update's axis 0 is its one window axis and runs over the
  table's axis 0, the table's axis 1 is inserted and is the one axis a scatter index names, the index vector lies along
  axis 1 of the indices, and the combining function returns the update. Update entry `(r, e)` lands at `(r, p e)` where
  `p e` is position `e` read as a signed integer, and is dropped when `p e` is outside `[0, C)`. The program's scatter is
  the fold of these writes in row-major order of the update; when the positions are pairwise distinct at most one write
  lands on any entry, so the order does not matter: entry `(r, c)` of the result is the update's `(r, e)` if some
  position `e` names column `c`, and the table's own entry if none does.
-/
import Idealize.ShloMosaic.PureOps.ShapeOps
import Idealize.ShloMosaic.Lib.ValueIdx

namespace Cert.LibColumnSet

open Idealize.ShloMosaic Idealize.ShloMosaic.ValueIdx

/-! ## A fold of writes, read at one entry

A fold whose every step either leaves entry `k` alone or writes one fixed value `v` there ends, at `k`, with the
starting entry if no step writes and with `v` if some step surely writes: after that step the entry is `v` and every
later step keeps it or writes `v` again. -/

section Fold

variable {ι κ β : Type}

/-- If every step of the fold leaves entry `k` as it was, the fold's result at `k` is the start's. -/
theorem foldl_keep (step : (κ → β) → ι → κ → β) (k : κ) (l : List ι) (x : κ → β)
    (h : ∀ (ρ : κ → β) (j : ι), j ∈ l → step ρ j k = ρ k) : l.foldl step x k = x k := by
  induction l using List.reverseRecOn with
  | nil => rfl
  | append_singleton l j ih =>
    rw [List.foldl_append, List.foldl_cons, List.foldl_nil, h _ j (by simp)]
    exact ih (fun ρ j' hj' => h ρ j' (by simp [hj']))

/-- If one step `j0` of the fold writes `v` at entry `k` and every step either leaves that entry or writes `v` there,
    the fold's result at `k` is `v`. -/
theorem foldl_hit (step : (κ → β) → ι → κ → β) (k : κ) (v : β) (l : List ι) (x : κ → β) (j0 : ι) (hj0 : j0 ∈ l)
    (h0 : ∀ ρ : κ → β, step ρ j0 k = v)
    (h : ∀ (ρ : κ → β) (j : ι), j ∈ l → step ρ j k = ρ k ∨ step ρ j k = v) : l.foldl step x k = v := by
  induction l using List.reverseRecOn with
  | nil => simp at hj0
  | append_singleton l j ih =>
    rw [List.foldl_append, List.foldl_cons, List.foldl_nil]
    by_cases hj : j = j0
    · subst hj; exact h0 _
    · have hm : j0 ∈ l := by
        rcases List.mem_append.1 hj0 with hm | hm
        · exact hm
        · exact absurd (List.mem_singleton.1 hm).symm hj
      rcases h (l.foldl step x) j (by simp) with hk | hk
      · rw [hk]; exact ih hm (fun ρ j' hj' => h ρ j' (by simp [hj']))
      · exact hk

end Fold

/-! ## Where an update entry lands -/

section Land

variable {s si u : Shape} {w : ℕ}

/-- An update entry that lands, lands on each axis at its start plus its window coordinate. -/
theorem resultIdx?_some (d : ScatterDims s si u) (j : u.Idx) (idx : IVec si w) (i : s.Idx)
    (h : d.resultIdx? j idx = some i) (a : Fin s.rank) : ((i a).val : ℤ) = d.start j idx a + d.window j a := by
  unfold ScatterDims.resultIdx? at h
  split at h
  · rename_i hh
    cases h
    show ((d.start j idx a + d.window j a).toNat : ℤ) = _
    exact Int.toNat_of_nonneg (hh a).1
  · cases h

/-- An update entry whose start plus window coordinate is an operand index's coordinate on every axis lands there. -/
theorem resultIdx?_eq_some (d : ScatterDims s si u) (j : u.Idx) (idx : IVec si w) (i : s.Idx)
    (h : ∀ a, d.start j idx a + d.window j a = ((i a).val : ℤ)) : d.resultIdx? j idx = some i := by
  unfold ScatterDims.resultIdx?
  rw [dif_pos (fun a => by rw [h a]; exact ⟨Int.natCast_nonneg _, by exact_mod_cast (i a).isLt⟩)]
  congr 1
  funext a
  apply Fin.ext
  show (d.start j idx a + d.window j a).toNat = (i a).val
  rw [h a]; exact Int.toNat_natCast _

end Land

variable {α : Type} {R C n w : ℕ}

/-- With a column of positions scattered along the table's axis 1, update entry `(r', e')` starts at row 0 with window
    coordinate `r'` on axis 0, and at the column position `e'` names with window coordinate 0 on axis 1. -/
theorem land (d : ScatterDims ⟨2, ![R, C]⟩ ⟨2, ![n, 1]⟩ ⟨2, ![R, n]⟩)
    (huw : d.updateWindowDims = [0]) (hiw : d.insertedWindowDims = [1]) (hsd : d.scatterDimsToOperandDims = [1])
    (hivd : d.indexVectorDim = 1) (idx : IVec ⟨2, ![n, 1]⟩ w) (r' : Fin R) (e' : Fin n) :
    d.start (ix2 r' e') idx 0 + d.window (ix2 r' e') 0 = (r'.val : ℤ) ∧
    d.start (ix2 r' e') idx 1 + d.window (ix2 r' e') 1 = (idx (ix2 e' 0)).toInt := by
  have hk0 : (0 : Fin 2) ∈ d.sKept := by
    simp [ScatterDims.sKept, Shape.kept, hiw]
  have hk1 : (1 : Fin 2) ∉ d.sKept := by
    simp [ScatterDims.sKept, Shape.kept, hiw]
  have hm0 : (0 : Fin 2) ∉ d.scatterDimsToOperandDims := by rw [hsd]; simp
  have hm1 : (1 : Fin 2) ∈ d.scatterDimsToOperandDims := by rw [hsd]; exact List.mem_singleton.mpr rfl
  -- the update's one window axis is axis 0, its one scatter axis is axis 1
  have huwm : ∀ a ∈ d.updateWindowDims, a = (0 : Fin 2) := fun a ha => by
    rw [huw] at ha; exact List.mem_singleton.1 ha
  have huw0 : ∀ (i : Nat) (hi : i < d.updateWindowDims.length), d.updateWindowDims[i] = (0 : Fin 2) := fun i hi =>
    huwm _ (List.getElem_mem hi)
  have husm : ∀ a ∈ d.uScatter, a = (1 : Fin 2) := fun a ha => by
    simp only [ScatterDims.uScatter, Shape.kept, huw, List.mem_filter, List.mem_singleton] at ha
    have hne : a ≠ (0 : Fin 2) := by simpa using ha.2
    have hlt : a.val < 2 := a.isLt
    have hv : a.val ≠ 0 := fun h => hne (Fin.ext h)
    apply Fin.ext
    show a.val = 1
    omega
  have hus1 : ∀ (i : Nat) (hi : i < d.uScatter.length), d.uScatter[i] = (1 : Fin 2) := fun i hi =>
    husm _ (List.getElem_mem hi)
  have rd0 : ∀ a : Fin 2, a = 0 → ((ix2 r' e' : (⟨2, ![R, n]⟩ : Shape).Idx) a).val = r'.val := by rintro _ rfl; rfl
  have rd1 : ∀ a : Fin 2, a = 1 → ((ix2 r' e' : (⟨2, ![R, n]⟩ : Shape).Idx) a).val = e'.val := by rintro _ rfl; rfl
  -- the start index update entry (r', e') reads is the column's entry at row e'
  have hsi : ∀ h, d.siIdx (ix2 r' e') ⟨List.idxOf (1 : Fin 2) d.scatterDimsToOperandDims, h⟩ = ix2 e' 0 := fun h => by
    funext b
    match b with
    | ⟨0, _⟩ =>
      unfold ScatterDims.siIdx
      rw [dif_neg (by rw [hivd]; simp)]
      unfold ScatterDims.siCoord
      apply Fin.ext
      simp only [Fin.val_cast]
      exact rd1 _ (hus1 _ _)
    | ⟨1, _⟩ =>
      unfold ScatterDims.siIdx
      rw [dif_pos (by rw [hivd])]
      apply Fin.ext
      show List.idxOf (1 : Fin 2) d.scatterDimsToOperandDims = 0
      rw [hsd]; simp
  have hs0 : d.start (ix2 r' e') idx 0 = 0 := by
    unfold ScatterDims.start; rw [dif_neg hm0]
  have hw0 : d.window (ix2 r' e') 0 = r'.val := by
    unfold ScatterDims.window; rw [dif_pos hk0]
    exact rd0 _ (huw0 _ _)
  have hs1 : d.start (ix2 r' e') idx 1 = (idx (ix2 e' 0)).toInt := by
    unfold ScatterDims.start; rw [dif_pos hm1, hsi]
  have hw1 : d.window (ix2 r' e') 1 = 0 := by
    unfold ScatterDims.window; rw [dif_neg hk1]
  rw [hs0, hw0, hs1, hw1]
  exact ⟨by simp, by simp⟩

/-- An entry whose column position `e` names receives the update's entry `(r, e)`. -/
theorem scatter_cols_hit (d : ScatterDims ⟨2, ![R, C]⟩ ⟨2, ![n, 1]⟩ ⟨2, ![R, n]⟩)
    (huw : d.updateWindowDims = [0]) (hiw : d.insertedWindowDims = [1]) (hsd : d.scatterDimsToOperandDims = [1])
    (hivd : d.indexVectorDim = 1)
    (x : (⟨2, ![R, C]⟩ : Shape).Idx → α) (idx : IVec ⟨2, ![n, 1]⟩ w) (upd : (⟨2, ![R, n]⟩ : Shape).Idx → α)
    (hinj : ∀ e e' : Fin n, (idx (ix2 e 0)).toInt = (idx (ix2 e' 0)).toInt → e = e')
    (r : Fin R) (e : Fin n) (c : Fin C) (hc : (idx (ix2 e 0)).toInt = (c.val : ℤ)) :
    Host.scatter d (fun _ b => b) x idx upd (ix2 r c) = upd (ix2 r e) := by
  -- update entry (r, e) lands on (r, c)
  have hres : d.resultIdx? (ix2 r e) idx = some (ix2 r c) := by
    refine resultIdx?_eq_some d _ idx _ (fun a => ?_)
    obtain ⟨h0, h1⟩ := land d huw hiw hsd hivd idx r e
    match a with
    | ⟨0, _⟩ => exact h0
    | ⟨1, _⟩ => exact h1.trans hc
  unfold Host.scatter
  refine foldl_hit _ (ix2 r c) (upd (ix2 r e)) _ x ((⟨2, ![R, n]⟩ : Shape).rowMajor (ix2 r e)) (List.mem_finRange _)
    (fun ρ => ?_) (fun ρ m _ => ?_)
  · beta_reduce
    rw [Equiv.symm_apply_apply, hres]
    exact if_pos rfl
  · beta_reduce
    obtain ⟨r', e', hm⟩ : ∃ r' e', (⟨2, ![R, n]⟩ : Shape).rowMajor.symm m = ix2 r' e' := ⟨_, _, eq_ix2 _⟩
    rw [hm]
    rcases hq : d.resultIdx? (ix2 r' e') idx with _ | i
    · exact Or.inl rfl
    · by_cases hik : ix2 r c = i
      · -- a write that lands on (r, c) comes from row r and from the one position naming column c
        subst hik
        obtain ⟨h0, h1⟩ := land d huw hiw hsd hivd idx r' e'
        have q0 := (resultIdx?_some d _ idx _ hq 0).trans h0
        have q1 := (resultIdx?_some d _ idx _ hq 1).trans h1
        have hr : r' = r := Fin.ext (by exact_mod_cast q0.symm)
        have he : e' = e := hinj e' e (q1.symm.trans hc.symm)
        subst hr; subst he
        exact Or.inr (if_pos rfl)
      · exact Or.inl (if_neg hik)

/-- An entry whose column no position names keeps the table's entry. -/
theorem scatter_cols_miss (d : ScatterDims ⟨2, ![R, C]⟩ ⟨2, ![n, 1]⟩ ⟨2, ![R, n]⟩)
    (huw : d.updateWindowDims = [0]) (hiw : d.insertedWindowDims = [1]) (hsd : d.scatterDimsToOperandDims = [1])
    (hivd : d.indexVectorDim = 1)
    (x : (⟨2, ![R, C]⟩ : Shape).Idx → α) (idx : IVec ⟨2, ![n, 1]⟩ w) (upd : (⟨2, ![R, n]⟩ : Shape).Idx → α)
    (r : Fin R) (c : Fin C) (hc : ∀ e : Fin n, (idx (ix2 e 0)).toInt ≠ (c.val : ℤ)) :
    Host.scatter d (fun _ b => b) x idx upd (ix2 r c) = x (ix2 r c) := by
  unfold Host.scatter
  refine foldl_keep _ (ix2 r c) _ x (fun ρ m _ => ?_)
  beta_reduce
  obtain ⟨r', e', hm⟩ : ∃ r' e', (⟨2, ![R, n]⟩ : Shape).rowMajor.symm m = ix2 r' e' := ⟨_, _, eq_ix2 _⟩
  rw [hm]
  rcases hq : d.resultIdx? (ix2 r' e') idx with _ | i
  · rfl
  · by_cases hik : ix2 r c = i
    · -- a write landing on column c would come from a position naming c
      subst hik
      have q1 := (resultIdx?_some d _ idx _ hq 1).trans (land d huw hiw hsd hivd idx r' e').2
      exact absurd q1.symm (hc e')
    · exact if_neg hik

end Cert.LibColumnSet
-- ==== Proof.RefValue.lean ====
/-
  The reference's result is the coupling layer applied to the field.

  Its two index tables list the black and the white sites of a row; the gathers read the black and the white values;
  the perceptrons act row by row; and the two scatters write the kept black values and the coupled white values back
  to their own sites. Every site is black or white and is named by exactly one table position (its pair), so the site
  reads the update of its colour at its pair, which is the layer's value there.
-/
import proofs.«152704_j6270652252843_1_alg».proof.Proof.RefTables
import proofs.«152704_j6270652252843_1_alg».proof.Proof.RefMlp
import proofs.«152704_j6270652252843_1_alg».proof.Proof.LibColumnTake
import proofs.«152704_j6270652252843_1_alg».proof.Proof.LibColumnSet

noncomputable section

namespace Cert.ReferenceIdeal.CouplingValue

open Cert.ReferenceIdeal Cert.ReferenceIdeal.Gen Idealize.ShloMosaic Idealize.ShloMosaic.TcCoe Idealize.SL.Sem Cert.Coupling Cert.ReferenceIdeal.CouplingTerm Cert.ReferenceIdeal.CouplingTables Cert.ReferenceIdeal.CouplingMlp
  Cert.LibColumnTake Cert.LibColumnSet Idealize.ShloMosaic.ValueIdx

/-- A site number written as a 32-bit word reads back, as a signed integer, as itself. -/
theorem toInt_site (v : Fin 4096) : (BitVec.ofNat 32 v.val).toInt = (v.val : ℤ) := by
  have hv := v.isLt
  have h1 : (BitVec.ofNat 32 v.val).toNat = v.val := by
    rw [BitVec.toNat_ofNat]; exact Nat.mod_eq_of_lt (by omega)
  rw [BitVec.toInt_eq_toNat_of_lt (by rw [h1]; omega), h1]

/-- And names that site as a column of a 4096-column table. -/
theorem colOf_site (v : Fin 4096) : colOf 4096 (by decide) (BitVec.ofNat 32 v.val) = v := by
  apply Fin.ext
  have hv := v.isLt
  show min (BitVec.ofNat 32 v.val).toInt.toNat (4096 - 1) = v.val
  rw [toInt_site]
  omega

theorem blackIdx_toInt (k : Fin 2048) : (blackIdx (ix2 k 0)).toInt = ((blackSite k).val : ℤ) := by
  rw [blackIdx_apply, toInt_site]

theorem whiteIdx_toInt (k : Fin 2048) : (whiteIdx (ix2 k 0)).toInt = ((whiteSite k).val : ℤ) := by
  rw [whiteIdx_apply, toInt_site]

/-- Distinct positions name distinct black sites: a black site's pair is its position. -/
theorem blackIdx_inj (e e' : Fin 2048) (h : (blackIdx (ix2 e 0)).toInt = (blackIdx (ix2 e' 0)).toInt) : e = e' := by
  rw [blackIdx_toInt, blackIdx_toInt] at h
  have h' : blackSite e = blackSite e' := Fin.ext (by exact_mod_cast h)
  rw [← pairOf_blackSite e, ← pairOf_blackSite e', h']

theorem whiteIdx_inj (e e' : Fin 2048) (h : (whiteIdx (ix2 e 0)).toInt = (whiteIdx (ix2 e' 0)).toInt) : e = e' := by
  rw [whiteIdx_toInt, whiteIdx_toInt] at h
  have h' : whiteSite e = whiteSite e' := Fin.ext (by exact_mod_cast h)
  rw [← pairOf_whiteSite e, ← pairOf_whiteSite e', h']

/-- The gathered black columns, entry by entry. -/
theorem evens_apply (phi : FVec Ideal S16384x4096 .f32) (b : Fin 16384) (k : Fin 2048) :
    evens (F := Ideal) phi (ix2 b k) = blacks (rowAt phi b) k := by
  unfold evens
  rw [gather_cols _ rfl rfl rfl rfl rfl phi blackIdx b k (by decide), blackIdx_apply, colOf_site]
  rfl

theorem odds_apply (phi : FVec Ideal S16384x4096 .f32) (b : Fin 16384) (k : Fin 2048) :
    odds (F := Ideal) phi (ix2 b k) = whites (rowAt phi b) k := by
  unfold odds
  rw [gather_cols _ rfl rfl rfl rfl rfl phi whiteIdx b k (by decide), whiteIdx_apply, colOf_site]
  rfl

/-- The coupled white columns, entry by entry. -/
theorem coupledOdds_apply (phi : FVec Ideal S16384x4096 .f32) (w1 : FVec Ideal S2048x64 .f32) (b1 : FVec Ideal S64 .f32) (w2 : FVec Ideal S64x64 .f32) (b2 : FVec Ideal S64 .f32) (w3 : FVec Ideal S64x2048 .f32) (b3 : FVec Ideal S2048 .f32) (v1 : FVec Ideal S2048x64 .f32) (c1 : FVec Ideal S64 .f32) (v2 : FVec Ideal S64x64 .f32) (c2 : FVec Ideal S64 .f32) (v3 : FVec Ideal S64x2048 .f32) (c3 : FVec Ideal S2048 .f32) (b : Fin 16384) (k : Fin 2048) :
    coupledOdds (F := Ideal) phi w1 b1 w2 b2 w3 b3 v1 c1 v2 c2 v3 c3 (ix2 b k)
      = coupled (netOf w1 b1 w2 b2 w3 b3) (netOf v1 c1 v2 c2 v3 c3) (blacks (rowAt phi b)) (whites (rowAt phi b)) k := by
  have hrow : (fun j => evens (F := Ideal) phi (ix2 b j)) = blacks (rowAt phi b) := funext fun j => evens_apply phi b j
  unfold coupledOdds coupled
  rw [mulf_apply, subf_apply, odds_apply, mlp_apply, hrow]
  show _ * FloatOps.hostUnary .exp (FloatOps.hostNegf (Cert.ReferenceIdeal.CouplingTerm.mlp (F := Ideal) (evens phi) w1 b1 w2 b2 w3 b3 (ix2 b k))) = _
  rw [mlp_apply, hrow, Ideal.hostUnary_exp_def, Ideal.hostNegf_def, Ideal.negf_def]

theorem out_eq (phi : FVec Ideal S16384x4096 .f32) (w1 : FVec Ideal S2048x64 .f32) (b1 : FVec Ideal S64 .f32) (w2 : FVec Ideal S64x64 .f32) (b2 : FVec Ideal S64 .f32) (w3 : FVec Ideal S64x2048 .f32) (b3 : FVec Ideal S2048 .f32) (v1 : FVec Ideal S2048x64 .f32) (c1 : FVec Ideal S64 .f32) (v2 : FVec Ideal S64x64 .f32) (c2 : FVec Ideal S64 .f32) (v3 : FVec Ideal S64x2048 .f32) (c3 : FVec Ideal S2048 .f32) :
    out (F := Ideal) phi w1 b1 w2 b2 w3 b3 v1 c1 v2 c2 v3 c3
      = layer (netOf w1 b1 w2 b2 w3 b3) (netOf v1 c1 v2 c2 v3 c3) phi := by
  funext i
  obtain ⟨b, n, rfl⟩ : ∃ (b : Fin 16384) (n : Fin 4096), i = ix2 b n := ⟨i 0, i 1, eq_ix2 i⟩
  rw [layer_apply]
  unfold rowOut out
  by_cases hb : isBlack n
  · rw [if_pos hb]
    -- no white position names a black site; the black position of the site's pair does
    rw [scatter_cols_miss _ rfl rfl rfl rfl _ whiteIdx _ b n (fun e he => by
          rw [whiteIdx_toInt] at he
          have : whiteSite e = n := Fin.ext (by exact_mod_cast he)
          exact not_isBlack_whiteSite e (this ▸ hb)),
      scatter_cols_hit _ rfl rfl rfl rfl _ blackIdx _ blackIdx_inj b (pairOf n) n (by
          rw [blackIdx_toInt, blackSite_pairOf n hb]),
      evens_apply]
  · rw [if_neg hb]
    rw [scatter_cols_hit _ rfl rfl rfl rfl _ whiteIdx _ whiteIdx_inj b (pairOf n) n (by
          rw [whiteIdx_toInt, whiteSite_pairOf n hb]),
      coupledOdds_apply]

end Cert.ReferenceIdeal.CouplingValue

end
-- ==== Proof.lean ====
/-
  The certificate's claims.

  Both programs compute one coupling layer on a 64 × 64 checkerboard (Proof/Coupling.lean): the black sites of every
  row are kept and the white sites are sent to `(white − t(black)) · exp(−s(black))` for two perceptrons `s`, `t` of
  the row's black values. The kernel splits a row into its black and white halves by reshaping into pairs and
  selecting by the board row's parity, runs the perceptrons block by block of 256 rows, and interleaves the halves
  back; the reference gathers the two halves through tables of site numbers and scatters them back. On the extended
  reals the two are the same function entry by entry, with no law needed beyond `0 − x = −x`, so the precondition is
  never opened. The frames of the two kernel programs are the generated ones; the reference's frame is its run with
  the result dropped; the idealization rewrote nothing.
-/
import proofs.«152704_j6270652252843_1_alg».proof.Defs
import proofs.«152704_j6270652252843_1_alg».proof.Proof.Gen.Kernel
import proofs.«152704_j6270652252843_1_alg».proof.Proof.Gen.Kernel.Skeleton
import proofs.«152704_j6270652252843_1_alg».proof.Proof.Gen.Kernel.Launch
import proofs.«152704_j6270652252843_1_alg».proof.Proof.Gen.Kernel.Points
import proofs.«152704_j6270652252843_1_alg».proof.Proof.Gen.Kernel.Frame
import proofs.«152704_j6270652252843_1_alg».proof.Proof.Gen.KernelIdeal
import proofs.«152704_j6270652252843_1_alg».proof.Proof.Gen.KernelIdeal.Skeleton
import proofs.«152704_j6270652252843_1_alg».proof.Proof.Gen.KernelIdeal.Launch
import proofs.«152704_j6270652252843_1_alg».proof.Proof.Gen.KernelIdeal.Points
import proofs.«152704_j6270652252843_1_alg».proof.Proof.Gen.KernelIdeal.Frame
import proofs.«152704_j6270652252843_1_alg».proof.Proof.Gen.ReferenceIdeal
import proofs.«152704_j6270652252843_1_alg».proof.Proof.Gen.Pre_finite_inputs
import proofs.«152704_j6270652252843_1_alg».proof.Proof.KernelValue
import proofs.«152704_j6270652252843_1_alg».proof.Proof.RefRun
import proofs.«152704_j6270652252843_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.CouplingRun.run (F := Ideal) m ρ)

/-- From memories that agree on the thirteen arguments both programs end with the layer of the same field under the
    same two perceptrons. -/
theorem algebraic : Cert.algebraic_KernelIdeal_ReferenceIdeal := by
  intro m ρ m' ρ' _ hagree
  refine ⟨_, Cert.KernelIdeal.CouplingValue.run m ρ, ?_⟩
  refine (θ_run Cert.ReferenceIdeal.defs _ _).mono (fun _ h c => ⟨(h c).1.trans ?_, (h c).2⟩)
    (Cert.ReferenceIdeal.CouplingRun.run (F := Ideal) m' ρ')
  obtain ⟨h0, h1, h2, h3, h4, h5, h6, h7, h8, h9, h10, h11, h12⟩ := hagree c
  rw [h0, h1, h2, h3, h4, h5, h6, h7, h8, h9, h10, h11, h12]
  exact Cert.ReferenceIdeal.CouplingValue.out_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
